-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S16x1048576 : Shape := ⟨2, ![16, 1048576]⟩
abbrev S_ : Shape := ⟨0, ![]⟩

class Facts : Prop where
  bcast_S_S16x1048576 : S_.BroadcastsInDim S16x1048576 (![] : Fin 0 → Fin S16x1048576.rank)
  reducesTo_S16x1048576_S_d0_1 : S16x1048576.ReducesTo [0, 1] S_
  h_S_ : 0 < S_.numel

variable [Facts]

def fn {F : FTy → Type} [FloatOps F] (main_arg0 : IVec S16x1048576 32) : IVec S_ 1 :=
  let main_c : IVec S_ 32 := constantI S_ 32 0#32
  let main_v0 : IVec S16x1048576 32 := broadcastInDim S16x1048576 ![] bcast_S_S16x1048576 main_c
  let main_v1 : IVec S16x1048576 1 := cmpi .sge main_arg0 main_v0
  let main_c_0 : IVec S_ 1 := constantI S_ 1 1#1
  let main_v2 : IVec S_ 1 := (fun x v => Host.reduce IntOp.andi x v reducesTo_S16x1048576_S_d0_1 h_S_) main_v1 main_c_0
  main_v2
-- ==== Kernel.lean ====
abbrev S16x1048576 : Shape := ⟨2, ![16, 1048576]⟩
abbrev S16777216 : Shape := ⟨1, ![16777216]⟩
abbrev S2x32x32 : Shape := ⟨3, ![2, 32, 32]⟩
abbrev S524288 : Shape := ⟨1, ![524288]⟩
abbrev S1x32x32 : Shape := ⟨3, ![1, 32, 32]⟩
abbrev S32x32 : Shape := ⟨2, ![32, 32]⟩
abbrev S32x1 : Shape := ⟨2, ![32, 1]⟩
abbrev S16384 : Shape := ⟨1, ![16384]⟩
abbrev S1x16384 : Shape := ⟨2, ![1, 16384]⟩
abbrev S32x16384 : Shape := ⟨2, ![32, 16384]⟩
abbrev S_ : Shape := ⟨0, ![]⟩

abbrev nBuf : Space → Nat
  | .hbm => 17
  | .vmem => 5
  | .smem => 0
  | _ => 0

abbrev bufTy : (tb : Table) → Fin (tcTables nBuf tb) → BufTy
  | .hbm, ⟨0, _⟩ => ⟨S16x1048576, .i32⟩
  | .hbm, ⟨1, _⟩ => ⟨S16777216, .i32⟩
  | .hbm, ⟨2, _⟩ => ⟨S2x32x32, .f32⟩
  | .hbm, ⟨3, _⟩ => ⟨S_, .f32⟩
  | .hbm, ⟨4, _⟩ => ⟨S32x32, .f32⟩
  | .hbm, ⟨5, _⟩ => ⟨S_, .f32⟩
  | .hbm, ⟨6, _⟩ => ⟨S32x32, .f32⟩
  | .hbm, ⟨7, _⟩ => ⟨S32x32, .f32⟩
  | .hbm, ⟨8, _⟩ => ⟨S_, .f32⟩
  | .hbm, ⟨9, _⟩ => ⟨S32x32, .f32⟩
  | .hbm, ⟨10, _⟩ => ⟨S32x32, .f32⟩
  | .hbm, ⟨11, _⟩ => ⟨S32x32, .f32⟩
  | .hbm, ⟨12, _⟩ => ⟨S32x32, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S524288, .i32⟩
  | .local _ .vmem, ⟨1, _⟩ => ⟨S524288, .i32⟩
  | .local _ .vmem, ⟨2, _⟩ => ⟨S1x32x32, .f32⟩
  | .local _ .vmem, ⟨3, _⟩ => ⟨S1x32x32, .f32⟩
  | .local _ .vmem, ⟨4, _⟩ => ⟨S32x32, .f32⟩
  | _, _ => ⟨S16x1048576, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 16], ![false, false]⟩

def k0_mult1 : BitVec 32 :=
  let c0_i32_1 : BitVec 32 := 0#32
  let c16384_i32 : BitVec 32 := 16384#32
  let v6 : BitVec 32 := Scalar.muli c0_i32_1 c16384_i32
  v6
def k0_off1 (c0_i32_1 : BitVec 32) : Fin 1 → Nat :=
  let c16384_i32 : BitVec 32 := 16384#32
  let v6 : BitVec 32 := Scalar.muli c0_i32_1 c16384_i32
  let v7 : BitVec 32 := v6
  let v8 : Index := Scalar.indexCast v7
  ![v8.toNat]
def k0_mult2 : BitVec 32 :=
  let c1_i32 : BitVec 32 := 1#32
  let c16384_i32_3 : BitVec 32 := 16384#32
  let v33 : BitVec 32 := Scalar.muli c1_i32 c16384_i32_3
  v33
def k0_mult3 : BitVec 32 :=
  let c2_i32 : BitVec 32 := 2#32
  let c16384_i32_7 : BitVec 32 := 16384#32
  let v60 : BitVec 32 := Scalar.muli c2_i32 c16384_i32_7
  v60
def k0_mult4 : BitVec 32 :=
  let c3_i32 : BitVec 32 := 3#32
  let c16384_i32_11 : BitVec 32 := 16384#32
  let v87 : BitVec 32 := Scalar.muli c3_i32 c16384_i32_11
  v87
def k0_mult5 : BitVec 32 :=
  let c4_i32 : BitVec 32 := 4#32
  let c16384_i32_15 : BitVec 32 := 16384#32
  let v114 : BitVec 32 := Scalar.muli c4_i32 c16384_i32_15
  v114
def k0_mult6 : BitVec 32 :=
  let c5_i32_19 : BitVec 32 := 5#32
  let c16384_i32_20 : BitVec 32 := 16384#32
  let v141 : BitVec 32 := Scalar.muli c5_i32_19 c16384_i32_20
  v141
def k0_mult7 : BitVec 32 :=
  let c6_i32 : BitVec 32 := 6#32
  let c16384_i32_24 : BitVec 32 := 16384#32
  let v168 : BitVec 32 := Scalar.muli c6_i32 c16384_i32_24
  v168
def k0_mult8 : BitVec 32 :=
  let c7_i32 : BitVec 32 := 7#32
  let c16384_i32_28 : BitVec 32 := 16384#32
  let v195 : BitVec 32 := Scalar.muli c7_i32 c16384_i32_28
  v195
def k0_mult9 : BitVec 32 :=
  let c8_i32 : BitVec 32 := 8#32
  let c16384_i32_32 : BitVec 32 := 16384#32
  let v222 : BitVec 32 := Scalar.muli c8_i32 c16384_i32_32
  v222
def k0_mult10 : BitVec 32 :=
  let c9_i32 : BitVec 32 := 9#32
  let c16384_i32_36 : BitVec 32 := 16384#32
  let v249 : BitVec 32 := Scalar.muli c9_i32 c16384_i32_36
  v249
def k0_mult11 : BitVec 32 :=
  let c10_i32 : BitVec 32 := 10#32
  let c16384_i32_40 : BitVec 32 := 16384#32
  let v276 : BitVec 32 := Scalar.muli c10_i32 c16384_i32_40
  v276
def k0_mult12 : BitVec 32 :=
  let c11_i32 : BitVec 32 := 11#32
  let c16384_i32_44 : BitVec 32 := 16384#32
  let v303 : BitVec 32 := Scalar.muli c11_i32 c16384_i32_44
  v303
def k0_mult13 : BitVec 32 :=
  let c12_i32 : BitVec 32 := 12#32
  let c16384_i32_48 : BitVec 32 := 16384#32
  let v330 : BitVec 32 := Scalar.muli c12_i32 c16384_i32_48
  v330
def k0_mult14 : BitVec 32 :=
  let c13_i32 : BitVec 32 := 13#32
  let c16384_i32_52 : BitVec 32 := 16384#32
  let v357 : BitVec 32 := Scalar.muli c13_i32 c16384_i32_52
  v357
def k0_mult15 : BitVec 32 :=
  let c14_i32 : BitVec 32 := 14#32
  let c16384_i32_56 : BitVec 32 := 16384#32
  let v384 : BitVec 32 := Scalar.muli c14_i32 c16384_i32_56
  v384
def k0_mult16 : BitVec 32 :=
  let c15_i32 : BitVec 32 := 15#32
  let c16384_i32_60 : BitVec 32 := 16384#32
  let v411 : BitVec 32 := Scalar.muli c15_i32 c16384_i32_60
  v411
def k0_mult17 : BitVec 32 :=
  let c16_i32 : BitVec 32 := 16#32
  let c16384_i32_64 : BitVec 32 := 16384#32
  let v438 : BitVec 32 := Scalar.muli c16_i32 c16384_i32_64
  v438
def k0_mult18 : BitVec 32 :=
  let c17_i32 : BitVec 32 := 17#32
  let c16384_i32_68 : BitVec 32 := 16384#32
  let v465 : BitVec 32 := Scalar.muli c17_i32 c16384_i32_68
  v465
def k0_mult19 : BitVec 32 :=
  let c18_i32 : BitVec 32 := 18#32
  let c16384_i32_72 : BitVec 32 := 16384#32
  let v492 : BitVec 32 := Scalar.muli c18_i32 c16384_i32_72
  v492
def k0_mult20 : BitVec 32 :=
  let c19_i32 : BitVec 32 := 19#32
  let c16384_i32_76 : BitVec 32 := 16384#32
  let v519 : BitVec 32 := Scalar.muli c19_i32 c16384_i32_76
  v519
def k0_mult21 : BitVec 32 :=
  let c20_i32 : BitVec 32 := 20#32
  let c16384_i32_80 : BitVec 32 := 16384#32
  let v546 : BitVec 32 := Scalar.muli c20_i32 c16384_i32_80
  v546
def k0_mult22 : BitVec 32 :=
  let c21_i32 : BitVec 32 := 21#32
  let c16384_i32_84 : BitVec 32 := 16384#32
  let v573 : BitVec 32 := Scalar.muli c21_i32 c16384_i32_84
  v573
def k0_mult23 : BitVec 32 :=
  let c22_i32 : BitVec 32 := 22#32
  let c16384_i32_88 : BitVec 32 := 16384#32
  let v600 : BitVec 32 := Scalar.muli c22_i32 c16384_i32_88
  v600
def k0_mult24 : BitVec 32 :=
  let c23_i32 : BitVec 32 := 23#32
  let c16384_i32_92 : BitVec 32 := 16384#32
  let v627 : BitVec 32 := Scalar.muli c23_i32 c16384_i32_92
  v627
def k0_mult25 : BitVec 32 :=
  let c24_i32 : BitVec 32 := 24#32
  let c16384_i32_96 : BitVec 32 := 16384#32
  let v654 : BitVec 32 := Scalar.muli c24_i32 c16384_i32_96
  v654
def k0_mult26 : BitVec 32 :=
  let c25_i32 : BitVec 32 := 25#32
  let c16384_i32_100 : BitVec 32 := 16384#32
  let v681 : BitVec 32 := Scalar.muli c25_i32 c16384_i32_100
  v681
def k0_mult27 : BitVec 32 :=
  let c26_i32 : BitVec 32 := 26#32
  let c16384_i32_104 : BitVec 32 := 16384#32
  let v708 : BitVec 32 := Scalar.muli c26_i32 c16384_i32_104
  v708
def k0_mult28 : BitVec 32 :=
  let c27_i32 : BitVec 32 := 27#32
  let c16384_i32_108 : BitVec 32 := 16384#32
  let v735 : BitVec 32 := Scalar.muli c27_i32 c16384_i32_108
  v735
def k0_mult29 : BitVec 32 :=
  let c28_i32 : BitVec 32 := 28#32
  let c16384_i32_112 : BitVec 32 := 16384#32
  let v762 : BitVec 32 := Scalar.muli c28_i32 c16384_i32_112
  v762
def k0_mult30 : BitVec 32 :=
  let c29_i32 : BitVec 32 := 29#32
  let c16384_i32_116 : BitVec 32 := 16384#32
  let v789 : BitVec 32 := Scalar.muli c29_i32 c16384_i32_116
  v789
def k0_mult31 : BitVec 32 :=
  let c30_i32 : BitVec 32 := 30#32
  let c16384_i32_120 : BitVec 32 := 16384#32
  let v816 : BitVec 32 := Scalar.muli c30_i32 c16384_i32_120
  v816
def k0_mult32 : BitVec 32 :=
  let c31_i32_124 : BitVec 32 := 31#32
  let c16384_i32_125 : BitVec 32 := 16384#32
  let v843 : BitVec 32 := Scalar.muli c31_i32_124 c16384_i32_125
  v843
def k0_cond2 (i : grid0.Coords) : BitVec 1 :=
  let arg1 : BitVec 32 := BitVec.ofNat 32 (i 1).val
  let c15_i32_132 : BitVec 32 := 15#32
  let v875 : BitVec 1 := Scalar.cmpi .eq arg1 c15_i32_132
  let v876 : BitVec 32 := Scalar.extui v875
  let c0_i32_133 : BitVec 32 := 0#32
  let v877 : BitVec 1 := Scalar.cmpi .ne v876 c0_i32_133
  v877

def cc0_transform_0 (i : grid0.Coords) : Fin 1 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  ![v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S524288 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S16x1048576_S16777216 : S16x1048576.ShapeCasts S16777216
  inb_S32x32_S32x32_0_0 : ∀ a, (![0, 0] : Fin 2 → Nat) a + S32x32.size a ≤ S32x32.size a
  h_S32x32 : 0 < S32x32.numel
  shapeCasts_S32x32_S32x32 : S32x32.ShapeCasts S32x32
  iota_S32x1_d0_w32 : S32x1.Iotas .tc 32 [0]
  h_S16384 : 0 < S16384.numel
  shapeCasts_S16384_S16384 : S16384.ShapeCasts S16384
  shapeCasts_S16384_S1x16384 : S16384.ShapeCasts S1x16384
  broadcasts_S32x1_S32x16384 : S32x1.Broadcasts S32x16384
  broadcasts_S1x16384_S32x16384 : S1x16384.Broadcasts S32x16384
  natLt_1_32 : 1 < 32
  bitsLt_bf16_f32 : FTy.bits .bf16 < FTy.bits .f32
  shapeCasts_S32x32_S1x32x32 : S32x32.ShapeCasts S1x32x32
  inb_S1x32x32_S1x32x32_0_0_0 : ∀ a, (![0, 0, 0] : Fin 3 → Nat) a + S1x32x32.size a ≤ S1x32x32.size a
  h_S1x32x32 : 0 < S1x32x32.numel
  reducesTo_S2x32x32_S32x32_d0 : S2x32x32.ReducesTo [0] S32x32
  h_S_ : 0 < S_.numel
  bcast_S_S32x32 : S_.BroadcastsInDim S32x32 (![] : Fin 0 → Fin S32x32.rank)
  reducesTo_S32x32_S_d0_1 : S32x32.ReducesTo [0, 1] S_
  dot_S32x16384_S32x16384_S32x32_1_1_0_0_n_n_wf : DotDims.WF S32x16384 S32x16384 S32x32 [1] [1] [0] [0] [] []
  hrank0 : 0 < grid0.rank
  k0_mult1_dvd : 128 ∣ k0_mult1.toNat
  k0_off1_inb : ∀ (r : Fin 32), ∀ a, (k0_off1 (BitVec.ofNat 32 r.val)) a + S16384.size a ≤ S524288.size a
  k0_mult2_dvd : 128 ∣ k0_mult2.toNat
  k0_mult3_dvd : 128 ∣ k0_mult3.toNat
  k0_mult4_dvd : 128 ∣ k0_mult4.toNat
  k0_mult5_dvd : 128 ∣ k0_mult5.toNat
  k0_mult6_dvd : 128 ∣ k0_mult6.toNat
  k0_mult7_dvd : 128 ∣ k0_mult7.toNat
  k0_mult8_dvd : 128 ∣ k0_mult8.toNat
  k0_mult9_dvd : 128 ∣ k0_mult9.toNat
  k0_mult10_dvd : 128 ∣ k0_mult10.toNat
  k0_mult11_dvd : 128 ∣ k0_mult11.toNat
  k0_mult12_dvd : 128 ∣ k0_mult12.toNat
  k0_mult13_dvd : 128 ∣ k0_mult13.toNat
  k0_mult14_dvd : 128 ∣ k0_mult14.toNat
  k0_mult15_dvd : 128 ∣ k0_mult15.toNat
  k0_mult16_dvd : 128 ∣ k0_mult16.toNat
  k0_mult17_dvd : 128 ∣ k0_mult17.toNat
  k0_mult18_dvd : 128 ∣ k0_mult18.toNat
  k0_mult19_dvd : 128 ∣ k0_mult19.toNat
  k0_mult20_dvd : 128 ∣ k0_mult20.toNat
  k0_mult21_dvd : 128 ∣ k0_mult21.toNat
  k0_mult22_dvd : 128 ∣ k0_mult22.toNat
  k0_mult23_dvd : 128 ∣ k0_mult23.toNat
  k0_mult24_dvd : 128 ∣ k0_mult24.toNat
  k0_mult25_dvd : 128 ∣ k0_mult25.toNat
  k0_mult26_dvd : 128 ∣ k0_mult26.toNat
  k0_mult27_dvd : 128 ∣ k0_mult27.toNat
  k0_mult28_dvd : 128 ∣ k0_mult28.toNat
  k0_mult29_dvd : 128 ∣ k0_mult29.toNat
  k0_mult30_dvd : 128 ∣ k0_mult30.toNat
  k0_mult31_dvd : 128 ∣ k0_mult31.toNat
  k0_mult32_dvd : 128 ∣ k0_mult32.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S524288.size a ≤ S16777216.size a
  hwx0_0 : ∀ i : grid0.Coords, EltTy.bits .i32 = 32 ∨ (Rect.block (s := S16777216) S524288.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x32.size a ≤ S2x32x32.size a
  hwx0_1 : ∀ i : grid0.Coords, EltTy.bits .f32 = 32 ∨ (Rect.block (s := S2x32x32) S1x32x32.size (cc0_transform_1 i) (hinb0_1 i)).WholeWords (EltTy.packing .f32)

variable [Facts₀]

def dot_S32x16384_S32x16384_S32x32_1_1_0_0_n_n : DotDims S32x16384 S32x16384 S32x32 where
  lhsContracting := [1]
  rhsContracting := [1]
  lhsNonContracting := [0]
  rhsNonContracting := [0]
  lhsBatch := []
  rhsBatch := []
  wf := dot_S32x16384_S32x16384_S32x32_1_1_0_0_n_n_wf

abbrev win0_0 : Pipeline.Window sig grid0 :=
  Pipeline.Window.ofSpec (Memref.whole main_v0) S524288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32x32.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S16x1048576 : Shape := ⟨2, ![16, 1048576]⟩
abbrev S16777216 : Shape := ⟨1, ![16777216]⟩
abbrev S_ : Shape := ⟨0, ![]⟩
abbrev S1024 : Shape := ⟨1, ![1024]⟩
abbrev S16777216x1 : Shape := ⟨2, ![16777216, 1]⟩

abbrev nBuf : Space → Nat
  | .hbm => 32
  | .vmem => 0
  | .smem => 0
  | _ => 0

abbrev bufTy : (tb : Table) → Fin (tcTables nBuf tb) → BufTy
  | .hbm, ⟨0, _⟩ => ⟨S16x1048576, .i32⟩
  | .hbm, ⟨1, _⟩ => ⟨S16777216, .i32⟩
  | .hbm, ⟨2, _⟩ => ⟨S_, .i32⟩
  | .hbm, ⟨3, _⟩ => ⟨S1024, .i32⟩
  | .hbm, ⟨4, _⟩ => ⟨S_, .i32⟩
  | .hbm, ⟨5, _⟩ => ⟨S_, .i32⟩
  | .hbm, ⟨6, _⟩ => ⟨S16777216, .i32⟩
  | .hbm, ⟨7, _⟩ => ⟨S16777216, .i32⟩
  | .hbm, ⟨8, _⟩ => ⟨S_, .i32⟩
  | .hbm, ⟨9, _⟩ => ⟨S16777216, .i32⟩
  | .hbm, ⟨10, _⟩ => ⟨S16777216, .i1⟩
  | .hbm, ⟨11, _⟩ => ⟨S_, .i32⟩
  | .hbm, ⟨12, _⟩ => ⟨S16777216, .i32⟩
  | .hbm, ⟨13, _⟩ => ⟨S16777216, .i32⟩
  | .hbm, ⟨14, _⟩ => ⟨S16777216, .i32⟩
  | .hbm, ⟨15, _⟩ => ⟨S16777216x1, .i32⟩
  | .hbm, ⟨16, _⟩ => ⟨S_, .i32⟩
  | .hbm, ⟨17, _⟩ => ⟨S16777216, .i32⟩
  | .hbm, ⟨18, _⟩ => ⟨S1024, .i32⟩
  | .hbm, ⟨19, _⟩ => ⟨S1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S16x1048576, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_c_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  shapeCasts_S16x1048576_S16777216 : S16x1048576.ShapeCasts S16777216
  bcast_S_S1024 : S_.BroadcastsInDim S1024 (![] : Fin 0 → Fin S1024.rank)
  bcast_S_S16777216 : S_.BroadcastsInDim S16777216 (![] : Fin 0 → Fin S16777216.rank)
  bcast_S16777216_S16777216x1_0 : S16777216.BroadcastsInDim S16777216x1 (![0] : Fin 1 → Fin S16777216x1.rank)
  reducesTo_S1024_S_d0 : S1024.ReducesTo [0] S_
  h_S_ : 0 < S_.numel
  scatter_S1024_S16777216x1_S16777216_n_0_0_1_wf : ScatterDims.WF S1024 S16777216x1 S16777216 [] [0] [0] 1

variable [Facts₀]

def scatter_S1024_S16777216x1_S16777216_n_0_0_1 : ScatterDims S1024 S16777216x1 S16777216 where
  updateWindowDims := []
  insertedWindowDims := [0]
  scatterDimsToOperandDims := [0]
  indexVectorDim := 1
  wf := scatter_S1024_S16777216x1_S16777216_n_0_0_1_wf

class Facts : Prop extends Facts₀ where

variable [Facts]
-- ==== Proof.Spec.lean ====
/-
  The specification of the histogram-perplexity certificate, over no program.

  The input is read as ONE flat sequence of 2^24 signed 32-bit words.  For an integer `b`, `cnt x a len b` is the number of
  positions `a ≤ n < a + len` whose word reads `b` as a signed integer, as an extended real (a finite sum of ones and
  zeros).  The result both programs compute is

      exp (-(∑ b < 1024, p b · log (p b + ε))),   p b = (number of words equal to b) / 2^24,

  with ε the binary32 word 0x322BCC77.  A count over a stretch splits over any cut of the stretch (`cnt_add`), hence over
  equal consecutive pieces (`cnt_mul`): this is all the arithmetic the two tilings of the sequence need.
-/
import Idealize.ShloMosaic.PureOps.Ideal
import Idealize.ShloMosaic.Lib.ValueIdx
import Mathlib.Algebra.BigOperators.Intervals
import Mathlib.Algebra.BigOperators.Fin

noncomputable section

namespace Cert.Hist

open Idealize.ShloMosaic Idealize.ShloMosaic.ValueIdx

/-- One where the word reads `b` as a signed integer, zero elsewhere. -/
def hit (w : BitVec 32) (b : ℤ) : EReal := if w.toInt = b then 1 else 0

/-- The flat array as a sequence over all naturals (zero words past its end, which no count below reaches). -/
def seq (v : IVec ⟨1, ![16777216]⟩ 32) (n : ℕ) : BitVec 32 :=
  if h : n < 16777216 then v (ix1 ⟨n, h⟩) else 0

/-- The (16, 1048576) argument read row-major as one flat array: position `n` is row `n / 1048576`, column `n % 1048576`. -/
def flatOf (x : IVec ⟨2, ![16, 1048576]⟩ 32) : IVec ⟨1, ![16777216]⟩ 32 := fun i =>
  x (ix2 ⟨(i 0).val / 1048576, by have h0 : (i 0).val < 16777216 := (i 0).isLt; show (i 0).val / 1048576 < 16; omega⟩
         ⟨(i 0).val % 1048576, by show (i 0).val % 1048576 < 1048576; omega⟩)

/-- How many of the `len` words from position `a` on read `b`. -/
def cnt (x : ℕ → BitVec 32) (a len : ℕ) (b : ℤ) : EReal := ∑ k ∈ Finset.range len, hit (x (a + k)) b

theorem cnt_zero (x : ℕ → BitVec 32) (a : ℕ) (b : ℤ) : cnt x a 0 b = 0 := by
  simp [cnt]

/-- A stretch cut in two: the counts add. -/
theorem cnt_add (x : ℕ → BitVec 32) (a l₁ l₂ : ℕ) (b : ℤ) :
    cnt x a (l₁ + l₂) b = cnt x a l₁ b + cnt x (a + l₁) l₂ b := by
  unfold cnt
  rw [Finset.sum_range_add]
  simp only [Nat.add_assoc]

/-- A stretch cut into `k` consecutive pieces of one length: the count is the sum of the pieces' counts. -/
theorem cnt_mul (x : ℕ → BitVec 32) (a k L : ℕ) (b : ℤ) :
    cnt x a (k * L) b = ∑ j ∈ Finset.range k, cnt x (a + j * L) L b := by
  induction k with
  | zero => simp [cnt]
  | succ k ih => rw [Nat.succ_mul, cnt_add, ih, Finset.sum_range_succ]

/-- The count as a sum over the positions of the stretch. -/
theorem cnt_eq_sum_fin (x : ℕ → BitVec 32) (a len : ℕ) (b : ℤ) :
    cnt x a len b = ∑ e : Fin len, hit (x (a + e.val)) b := by
  unfold cnt
  rw [Finset.sum_range]

/-- The smoothing constant: the binary32 word of 1e-8. -/
def eps : EReal := Ideal.ofBits .f32 0x322BCC77#32

/-- One bin's term of the entropy sum. -/
def term (p : EReal) : EReal := p * Ideal.log (p + eps)

/-- The share of the words that read `b`. -/
def prob (v : IVec ⟨1, ![16777216]⟩ 32) (b : ℤ) : EReal :=
  cnt (seq v) 0 16777216 b * ((1 / 16777216 : ℝ) : EReal)

/-- The perplexity of the histogram of the flat array over the bins 0 … 1023. -/
def G (v : IVec ⟨1, ![16777216]⟩ 32) : EReal :=
  Ideal.exp (-(∑ b : Fin 1024, term (prob v (b.val : ℤ))))

end Cert.Hist

end
-- ==== Proof.ChunkHist.lean ====
/-
  One sub-chunk's histogram.  The kernel writes a word x as 32·hi + lo with hi = x >> 5 (arithmetic) and lo = x & 31, compares
  hi and lo, as numbers, against the row numbers 0 … 31, and contracts the two 32 × 16384 indicator matrices over the
  element axis.  Entry (h, l) of the product is therefore the number of elements of the chunk with hi = h and lo = l, that
  is, with x = 32·h + l: for every 32-bit x, negative ones included, x = 32·(x >> 5) + (x & 31) with 0 ≤ x & 31 < 32.

  The proof in three steps.  Words: read signed, x >> 5 is the floor of x / 32 and x & 31 is the remainder of x by 32, so
  (x >> 5 reads h and x & 31 reads l) exactly when x reads 32·h + l, for 0 ≤ h, l < 32.  Indicators: the column of row
  numbers reads r at row r; broadcasting it along the elements, and the keys along the rows, the comparison of the two
  numbers is the comparison of the two integers, and the bit it gives, widened and converted, is the real one or zero.
  Product: into a zero accumulator the contraction over the element axis of both operands is, at (h, l), the sum over the
  elements of the product of the two indicators, and a product of two indicators is the indicator of the conjunction.
-/
import proofs.«411108_j32641751450044_3_alg».proof.KernelIdeal
import proofs.«411108_j32641751450044_3_alg».proof.Proof.Spec
import Idealize.ShloMosaic.PureOps.Ideal.Laws
import Idealize.ShloMosaic.Lib.ValueLayout

noncomputable section

namespace Cert.Hist

open Idealize.ShloMosaic Idealize.ShloMosaic.ValueIdx Cert.KernelIdeal

variable {F : FTy → Type} [FloatOps F] [Cert.KernelIdeal.Facts]
open Cert.KernelIdeal.Facts₀

/-- The row numbers 0 … 31 as a column of numbers. -/
def rows : FVec F S32x1 .bf16 := sitofp .bf16 (iota .tc S32x1 32 [0] iota_S32x1_d0_w32)

/-- Row r, element e: one where the key of element e is the number r. -/
def oneHot (r : FVec F S32x1 .bf16) (k : IVec S16384 32) : FVec F S32x16384 .bf16 :=
  truncf .bf16 (sitofp .f32 (extui 32 (cmpf .oeq (broadcastTo S32x16384 r broadcasts_S32x1_S32x16384)
    (broadcastTo S32x16384 (shapeCast S1x16384 (sitofp (F := F) .bf16 k) shapeCasts_S16384_S1x16384) broadcasts_S1x16384_S32x16384))
    natLt_1_32)) bitsLt_bf16_f32

/-- The 32 × 32 joint histogram of one chunk of 16384 words. -/
def chunkHist (r : FVec F S32x1 .bf16) (x : IVec S16384 32) : FVec F S32x32 .f32 :=
  matmul dot_S32x16384_S32x16384_S32x32_1_1_0_0_n_n none
    (oneHot r (shrsi x (broadcast S16384 (5#32 : BitVec 32))))
    (oneHot r (andi x (broadcast S16384 (31#32 : BitVec 32))))
    (constant S32x32 .f32 0x00000000#32)

namespace ChunkHist

/-! ### Words -/

/-- Read signed, the arithmetic shift by five is the floor of the quotient by 32. -/
theorem toInt_shr5 (x : BitVec 32) : (IntOp.shrsi .vector x 5#32).toInt = x.toInt / 32 := by
  unfold IntOp.shrsi
  rw [if_pos (by decide)]
  rw [BitVec.toInt_sshiftRight', Int.shiftRight_eq_div_pow]
  rfl

/-- Read signed, the low five bits are the remainder by 32, negative words included (32 divides 2^32). -/
theorem toInt_and31 (x : BitVec 32) : (IntOp.andi x 31#32).toInt = x.toInt % 32 := by
  unfold IntOp.andi
  have h1 : (x &&& 31#32).toNat = x.toNat % 32 := by
    rw [BitVec.toNat_and]
    exact Nat.and_two_pow_sub_one_eq_mod x.toNat 5
  have h2 := BitVec.toInt_eq_toNat_cond (x &&& 31#32)
  have h3 := BitVec.toInt_eq_toNat_cond x
  have h4 := x.isLt
  omega

/-- A word reads 32·h + l exactly when its arithmetic shift by five reads h and its low five bits read l. -/
theorem split_iff (x : BitVec 32) (h l : Fin 32) :
    ((IntOp.shrsi .vector x 5#32).toInt = (h.val : ℤ) ∧ (IntOp.andi x 31#32).toInt = (l.val : ℤ)) ↔ x.toInt = 32 * (h.val : ℤ) + (l.val : ℤ) := by
  rw [toInt_shr5, toInt_and31]
  have := l.isLt
  omega

/-! ### Layout -/

/-- A column broadcast along the rows' elements reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The column of row numbers reads r at row r. -/
theorem rows_apply (r : Fin 32) (u : Fin 1) : rows (F := Ideal) (ix2 r u) = (((r.val : ℤ) : ℝ) : EReal) := by
  unfold rows
  rw [sitofp_apply, iota_single_apply]
  show (((BitVec.ofNat 32 r.val).toInt : ℝ) : EReal) = _
  have h : (BitVec.ofNat 32 r.val).toInt = (r.val : ℤ) := by
    have h2 := BitVec.toInt_eq_toNat_cond (BitVec.ofNat 32 r.val)
    have h3 : (BitVec.ofNat 32 r.val).toNat = r.val := by
      rw [BitVec.toNat_ofNat]; exact Nat.mod_eq_of_lt (by have := r.isLt; omega)
    have := r.isLt
    omega
  rw [h]

/-- A decided bit, widened to a word and read as a signed number, is the real one or zero. -/
theorem bit_toReal (p : Prop) [Decidable p] :
    (((((BitVec.ofBool (decide p)).setWidth 32).toInt : ℤ) : ℝ) : EReal) = if p then 1 else 0 := by
  by_cases hp : p
  · rw [decide_eq_true hp, if_pos hp]
    show (((1 : ℤ) : ℝ) : EReal) = 1
    simp
  · rw [decide_eq_false hp, if_neg hp]
    show (((0 : ℤ) : ℝ) : EReal) = 0
    simp

/-- Row a, element e of the indicator matrix: one where the key of element e reads a, else zero. -/
theorem oneHot_apply (k : IVec S16384 32) (a : Fin 32) (e : Fin 16384) :
    oneHot (F := Ideal) rows k (ix2 a e) = if (k (ix1 e)).toInt = (a.val : ℤ) then 1 else 0 := by
  unfold oneHot
  rw [truncf_apply, sitofp_apply, extui_apply, cmpf_apply]
  have hA : broadcastTo S32x16384 (rows (F := Ideal)) broadcasts_S32x1_S32x16384 (ix2 a e) = (((a.val : ℤ) : ℝ) : EReal) :=
    (broadcastTo_a1_ab_apply _ _ a e).trans (rows_apply a 0)
  have hB : broadcastTo S32x16384 (shapeCast S1x16384 (sitofp (F := Ideal) .bf16 k) shapeCasts_S16384_S1x16384)
      broadcasts_S1x16384_S32x16384 (ix2 a e) = ((((k (ix1 e)).toInt : ℤ) : ℝ) : EReal) :=
    (broadcastTo_1b_ab_apply _ _ a e).trans ((shapeCast_a_1a_apply _ _ 0 e).trans rfl)
  rw [hA, hB]
  refine (bit_toReal ((((a.val : ℤ) : ℝ) : EReal) = ((((k (ix1 e)).toInt : ℤ) : ℝ) : EReal))).trans ?_
  refine if_congr ⟨fun h => ?_, fun h => by rw [h]⟩ rfl rfl
  exact_mod_cast (EReal.coe_eq_coe_iff.mp h).symm

/-! ### The operand indices of the product

Both operands are contracted on their element axis (axis 1) and keep their row axis (axis 0): at result entry j and
contraction position k the left operand is read at (j 0, k) and the right operand at (j 1, k). -/

theorem lhs_ax0 (j : S32x32.Idx) (k : dot_S32x16384_S32x16384_S32x32_1_1_0_0_n_n.contr.Idx) :
    (dot_S32x16384_S32x16384_S32x32_1_1_0_0_n_n.lhsIdx j k 0 : ℕ) = j 0 := by
  simp [DotDims.lhsIdx, dot_S32x16384_S32x16384_S32x32_1_1_0_0_n_n]; rfl
theorem lhs_ax1 (j : S32x32.Idx) (k : dot_S32x16384_S32x16384_S32x32_1_1_0_0_n_n.contr.Idx) :
    (dot_S32x16384_S32x16384_S32x32_1_1_0_0_n_n.lhsIdx j k 1 : ℕ) = k ⟨0, Nat.one_pos⟩ := by
  simp [DotDims.lhsIdx, dot_S32x16384_S32x16384_S32x32_1_1_0_0_n_n]; rfl
theorem rhs_ax0 (j : S32x32.Idx) (k : dot_S32x16384_S32x16384_S32x32_1_1_0_0_n_n.contr.Idx) :
    (dot_S32x16384_S32x16384_S32x32_1_1_0_0_n_n.rhsIdx j k 0 : ℕ) = j 1 := by
  simp [DotDims.rhsIdx, dot_S32x16384_S32x16384_S32x32_1_1_0_0_n_n]; rfl
theorem rhs_ax1 (j : S32x32.Idx) (k : dot_S32x16384_S32x16384_S32x32_1_1_0_0_n_n.contr.Idx) :
    (dot_S32x16384_S32x16384_S32x32_1_1_0_0_n_n.rhsIdx j k 1 : ℕ) = k ⟨0, Nat.one_pos⟩ := by
  simp [DotDims.rhsIdx, dot_S32x16384_S32x16384_S32x32_1_1_0_0_n_n]; rfl

end ChunkHist

open ChunkHist in
/-- Entry (h, l) of a chunk's histogram counts the chunk's words that read 32·h + l. -/
theorem chunkHist_apply (x : IVec S16384 32) (h l : Fin 32) :
    chunkHist (F := Ideal) rows x (ix2 h l) = ∑ e : Fin 16384, hit (x (ix1 e)) (32 * (h.val : ℤ) + (l.val : ℤ)) := by
  unfold chunkHist
  simp only [matmul]
  rw [Ideal.matmul_constant_zero_apply,
    ← Equiv.sum_comp (contrEquiv1 dot_S32x16384_S32x16384_S32x32_1_1_0_0_n_n 16384 rfl rfl).symm]
  refine Finset.sum_congr rfl fun e _ => ?_
  have cv := contrEquiv1_symm_val dot_S32x16384_S32x16384_S32x32_1_1_0_0_n_n 16384 rfl rfl e
  have hL : dot_S32x16384_S32x16384_S32x32_1_1_0_0_n_n.lhsIdx (ix2 h l)
      ((contrEquiv1 dot_S32x16384_S32x16384_S32x32_1_1_0_0_n_n 16384 rfl rfl).symm e) = ix2 h e :=
    Shape.idx_ext₂ (lhs_ax0 _ _) ((lhs_ax1 _ _).trans cv)
  have hR : dot_S32x16384_S32x16384_S32x32_1_1_0_0_n_n.rhsIdx (ix2 h l)
      ((contrEquiv1 dot_S32x16384_S32x16384_S32x32_1_1_0_0_n_n 16384 rfl rfl).symm e) = ix2 l e :=
    Shape.idx_ext₂ (rhs_ax0 _ _) ((rhs_ax1 _ _).trans cv)
  rw [hL, hR, oneHot_apply, oneHot_apply]
  show (if (IntOp.shrsi .vector (x (ix1 e)) 5#32).toInt = (h.val : ℤ) then (1 : EReal) else 0)
      * (if (IntOp.andi (x (ix1 e)) 31#32).toInt = (l.val : ℤ) then (1 : EReal) else 0) = _
  unfold hit
  have key := split_iff (x (ix1 e)) h l
  by_cases hx : (x (ix1 e)).toInt = 32 * (h.val : ℤ) + (l.val : ℤ)
  · obtain ⟨h1, h2⟩ := key.mpr hx
    rw [if_pos h1, if_pos h2, if_pos hx, one_mul]
  · rw [if_neg hx]
    by_cases h1 : (IntOp.shrsi .vector (x (ix1 e)) 5#32).toInt = (h.val : ℤ)
    · have h2 : ¬ (IntOp.andi (x (ix1 e)) 31#32).toInt = (l.val : ℤ) := fun h2 => hx (key.mp ⟨h1, h2⟩)
      rw [if_neg h2, mul_zero]
    · rw [if_neg h1, zero_mul]

end Cert.Hist

end
-- ==== Proof.KernelPieces.lean ====
/-
  What one grid point leaves in the accumulator.  A block of 524288 words is walked in 32 chunks of 16384; the running total
  after j chunks is the zero tile plus the chunks' histograms, and the body adds the total of all 32 to what the
  accumulator held (zero at a core's first point).  At a core's last point the output block is the accumulator, re-laid
  from (32, 32) to (1, 32, 32).
-/
import proofs.«411108_j32641751450044_3_alg».proof.Proof.Gen.KernelIdeal.Frame
import proofs.«411108_j32641751450044_3_alg».proof.Proof.ChunkHist
import Idealize.ShloMosaic.Lib.Pipeline.Value

set_option maxRecDepth 16384

noncomputable section

namespace Cert.Hist

open Idealize.ShloMosaic Idealize.ShloMosaic.TcCoe Idealize.ShloMosaic.Tactic Idealize.ShloMosaic.ValueIdx
open Idealize.SL Idealize.SL.Sem
open Cert.KernelIdeal Cert.KernelIdeal.Gen
open Cert.KernelIdeal.Facts₀

variable {F : FTy → Type} [FloatOps F]

/-- Chunk j of a block: its 16384 words from position j · 16384 (any words past the block's 32 chunks, which nothing reads). -/
def chunkN (x0 : Vec F S524288 .i32) (j : ℕ) : IVec S16384 32 :=
  if hj : j < 32 then
    shapeCast S16384 (View.ld x0 (Rect.unit (s := S524288) ![j * 16384] S16384.size
      (fun a => by
        have : (![j * 16384] : Fin 1 → ℕ) a = j * 16384 := by fin_cases a; rfl
        have hs : S16384.size a = 16384 := by fin_cases a; rfl
        have hb : S524288.size a = 524288 := by fin_cases a; rfl
        rw [this, hs, hb]; omega))) Facts₀.shapeCasts_S16384_S16384
  else fun _ => 0#32

/-- The running total after the first j chunks of a block. -/
def totUpto (x0 : Vec F S524288 .i32) : ℕ → FVec F S32x32 .f32
  | 0 => broadcast S32x32 (Scalar.ofBits (F := F) .f32 0x00000000#32)
  | j + 1 => addf (totUpto x0 j) (chunkHist (k0_pay4 (F := F)) (chunkN x0 j))

theorem sout0_B_0_eq (c : Dev nD) (i : grid0.Coords) (arg2 : Memref sig .tc .vmem S524288 .i32) (harg2 : arg2.IsWhole) (arg3 : Memref sig .tc .vmem S1x32x32 .f32) (harg3 : arg3.IsWhole) (arg4 : Memref sig .tc .vmem S32x32 .f32) (harg4 : arg4.IsWhole) (hc0 : ¬cond0_0 i) (hc1 : ¬cond0_1 i)
    (x0 : Vec F S524288 .i32) (xs0 : Vec F S32x32 .f32) :
    sout0_B_0 c i arg2 harg2 arg3 harg3 arg4 harg4 hc0 hc1 x0 xs0
      = shapeCast S32x32 (addf xs0 (totUpto x0 32)) Facts₀.shapeCasts_S32x32_S32x32 := by
  unfold sout0_B_0
  rw [View.read_writes_eq_canon _ _ _ (scover0_B_0 c i arg2 harg2 arg3 harg3 arg4 harg4 hc0 hc1 x0 xs0)]
  unfold kernelRun0_B
  dsimp only
  sl_unfold_words
  rw [View.canon_unit_zero (by funext a; fin_cases a <;> rfl)]
  simp only [View.readAt_eq_ld, harg2.read_unread, harg4.read_unread,
    View.ld_unit_zero (S := S32x32) (show (![0, 0] : Fin 2 → ℕ) = fun _ => 0 by funext a; fin_cases a <;> rfl)]
  rfl

/-- The zero tile the first point of a core stores into the accumulator. -/
def zeroTile : FVec F S32x32 .f32 := k0_pay3 (F := F)

theorem sout0_A_0_eq (c : Dev nD) (i : grid0.Coords) (arg2 : Memref sig .tc .vmem S524288 .i32) (harg2 : arg2.IsWhole) (arg3 : Memref sig .tc .vmem S1x32x32 .f32) (harg3 : arg3.IsWhole) (arg4 : Memref sig .tc .vmem S32x32 .f32) (harg4 : arg4.IsWhole) (hc0 : cond0_0 i) (hc1 : ¬cond0_1 i)
    (x0 : Vec F S524288 .i32) :
    sout0_A_0 c i arg2 harg2 arg3 harg3 arg4 harg4 hc0 hc1 x0
      = shapeCast S32x32 (addf (zeroTile (F := F)) (totUpto x0 32)) Facts₀.shapeCasts_S32x32_S32x32 := by
  unfold sout0_A_0
  rw [View.read_writes_eq_canon _ _ _ (scover0_A_0 c i arg2 harg2 arg3 harg3 arg4 harg4 hc0 hc1 x0)]
  unfold kernelRun0_A
  dsimp only
  sl_unfold_words
  rw [View.canon_cons_unit_zero (S := S32x32) (show (![0, 0] : Fin 2 → ℕ) = fun _ => 0 by funext a; fin_cases a <;> rfl)]
  simp only [View.readAt_eq_ld, harg2.read_unread, View.readCov_unit_zero (S := S32x32) _ (show (![0, 0] : Fin 2 → ℕ) = fun _ => 0 by funext a; fin_cases a <;> rfl)]
  rfl

theorem sout0_C_0_eq (c : Dev nD) (i : grid0.Coords) (arg2 : Memref sig .tc .vmem S524288 .i32) (harg2 : arg2.IsWhole) (arg3 : Memref sig .tc .vmem S1x32x32 .f32) (harg3 : arg3.IsWhole) (arg4 : Memref sig .tc .vmem S32x32 .f32) (harg4 : arg4.IsWhole) (hc0 : ¬cond0_0 i) (hc1 : cond0_1 i)
    (x0 : Vec F S524288 .i32) (xs0 : Vec F S32x32 .f32) :
    sout0_C_0 c i arg2 harg2 arg3 harg3 arg4 harg4 hc0 hc1 x0 xs0
      = shapeCast S32x32 (addf xs0 (totUpto x0 32)) Facts₀.shapeCasts_S32x32_S32x32 := by
  unfold sout0_C_0
  rw [View.read_writes_eq_canon _ _ _ (scover0_C_0 c i arg2 harg2 arg3 harg3 arg4 harg4 hc0 hc1 x0 xs0)]
  unfold kernelRun0_C
  dsimp only
  sl_unfold_words
  rw [View.canon_unit_zero (show (![0, 0] : Fin 2 → ℕ) = fun _ => 0 by funext a; fin_cases a <;> rfl)]
  simp only [View.readAt_eq_ld, harg2.read_unread, harg4.read_unread, View.ld_unit_zero (S := S32x32) (show (![0, 0] : Fin 2 → ℕ) = fun _ => 0 by funext a; fin_cases a <;> rfl)]
  rfl

theorem out0_C_1_eq (c : Dev nD) (i : grid0.Coords) (arg2 : Memref sig .tc .vmem S524288 .i32) (harg2 : arg2.IsWhole) (arg3 : Memref sig .tc .vmem S1x32x32 .f32) (harg3 : arg3.IsWhole) (arg4 : Memref sig .tc .vmem S32x32 .f32) (harg4 : arg4.IsWhole) (hc0 : ¬cond0_0 i) (hc1 : cond0_1 i)
    (x0 : Vec F S524288 .i32) (xs0 : Vec F S32x32 .f32) :
    out0_C_1 c i arg2 harg2 arg3 harg3 arg4 harg4 hc0 hc1 x0 xs0
      = shapeCast S1x32x32 (shapeCast S32x32 (addf xs0 (totUpto x0 32)) Facts₀.shapeCasts_S32x32_S32x32) Facts₀.shapeCasts_S32x32_S1x32x32 := by
  unfold out0_C_1
  rw [View.read_writes_eq_canon _ _ _ (cover0_C_1 c i arg2 harg2 arg3 harg3 arg4 harg4 hc0 hc1 x0 xs0)]
  unfold kernelRun0_C
  dsimp only
  sl_unfold_words
  rw [View.canon_unit_zero (show (![0, 0, 0] : Fin 3 → ℕ) = fun _ => 0 by funext a; fin_cases a <;> rfl)]
  simp only [View.readAt_eq_ld, harg2.read_unread, harg4.read_unread, View.ld_unit_zero (S := S32x32) (show (![0, 0] : Fin 2 → ℕ) = fun _ => 0 by funext a; fin_cases a <;> rfl),
    View.readCov_unit_zero (S := S32x32) _ (show (![0, 0] : Fin 2 → ℕ) = fun _ => 0 by funext a; fin_cases a <;> rfl)]
  rfl

end Cert.Hist

end
-- ==== Proof.KernelAcc.lean ====
/-
  The accumulator as a count.  A chunk is 16384 consecutive words of its block, so the running total after j chunks is, at
  (h, l), the number of the block's first j · 16384 words that read 32·h + l; a block is 524288 consecutive words of the
  flat array, and the grid walks the array's 32 blocks in order, 16 to a core, zeroing the accumulator at a core's first
  block.  Hence after point t the accumulator counts the words of core t / 16 from the core's start up to the end of
  block t.
-/
import proofs.«411108_j32641751450044_3_alg».proof.Proof.KernelPieces

set_option maxRecDepth 16384

noncomputable section

namespace Cert.Hist

open Idealize.ShloMosaic Idealize.ShloMosaic.TcCoe Idealize.ShloMosaic.ValueIdx
open Idealize.SL Idealize.SL.Sem
open Cert.KernelIdeal Cert.KernelIdeal.Gen

/-- Counts over stretches that carry the same words are equal. -/
theorem cnt_congr (x y : ℕ → BitVec 32) (a a' len : ℕ) (b : ℤ) (h : ∀ k, k < len → x (a + k) = y (a' + k)) :
    cnt x a len b = cnt y a' len b :=
  Finset.sum_congr rfl fun k hk => by rw [h k (Finset.mem_range.mp hk)]

/-- A block of 524288 words as a sequence (zero words past its end, which no count reaches). -/
def blockSeq (x0 : IVec S524288 32) (n : ℕ) : BitVec 32 := if h : n < 524288 then x0 (ix1 ⟨n, h⟩) else 0

/-- Element e of chunk j is word j · 16384 + e of the block. -/
theorem chunkN_apply (x0 : IVec S524288 32) (j : ℕ) (hj : j < 32) (e : Fin 16384) :
    chunkN (F := Ideal) x0 j (ix1 e) = blockSeq x0 (j * 16384 + e.val) := by
  have he := e.isLt
  unfold chunkN blockSeq
  rw [dif_pos hj, dif_pos (by omega)]
  refine (shapeCast_apply _ _ (ix1 e) (ix1 e) (by rw [Shape.rowMajor_val_one])).trans ?_
  refine congrArg x0 (funext fun a => ?_)
  match a with
  | ⟨0, _⟩ => exact Fin.ext (by show j * 16384 + 1 * e.val = j * 16384 + e.val; omega)

/-- The running total after j chunks counts the block's first j · 16384 words. -/
theorem totUpto_apply (x0 : IVec S524288 32) (h l : Fin 32) : ∀ j, j ≤ 32 →
    totUpto (F := Ideal) x0 j (ix2 h l) = cnt (blockSeq x0) 0 (j * 16384) (32 * (h.val : ℤ) + (l.val : ℤ))
  | 0, _ => by
    rw [Nat.zero_mul, cnt_zero]
    exact Ideal.ofBits_zero_f32
  | j + 1, hj => by
    have hj' : j ≤ 32 := by omega
    have hj'' : j < 32 := by omega
    have ih := totUpto_apply x0 h l j hj'
    rw [totUpto]
    rw [addf_apply]
    rw [ih]
    have hr : (k0_pay4 (F := Ideal)) = rows := rfl
    rw [hr, chunkHist_apply]
    have hm : (j + 1) * 16384 = j * 16384 + 16384 := Nat.succ_mul j 16384
    rw [hm, cnt_add, Nat.zero_add]
    refine congrArg (fun z => cnt (blockSeq x0) 0 (j * 16384) (32 * (h.val : ℤ) + (l.val : ℤ)) + z) ?_
    rw [cnt_eq_sum_fin]
    exact Finset.sum_congr rfl fun e _ => by rw [chunkN_apply x0 j hj'' e]

end Cert.Hist

end
-- ==== Proof.KernelPoints.lean ====
/-
  The grid walked point by point.  Point n = 16·q + r works on block n of the flat array, the 524288 words from position
  n · 524288, and core q owns the 16 blocks from q · 8388608.  At r = 0 the accumulator is zeroed and block n's histogram
  added; at r > 0 block n's histogram is added to what point n − 1 left.  A count over a stretch splits at any cut, so
  after point n the accumulator counts core q's words from its start through block n, (r + 1) · 524288 of them; at a core's
  last point, r = 15, that is the core's whole half, and the output block is the accumulator with a unit axis in front.
-/
import proofs.«411108_j32641751450044_3_alg».proof.Proof.KernelAcc

set_option maxRecDepth 16384

noncomputable section

namespace Cert.Hist

open Idealize.ShloMosaic Idealize.ShloMosaic.TcCoe Idealize.ShloMosaic.ValueIdx
open Idealize.SL Idealize.SL.Sem
open Cert.KernelIdeal Cert.KernelIdeal.Gen

/-- Position n · 524288 is core n / 16's start plus n % 16 blocks: 16 blocks of 524288 words make a core's 8388608. -/
theorem block_pos (n : ℕ) : n * 524288 = n / 16 * 8388608 + n % 16 * 524288 := by
  have hdm : 16 * (n / 16) + n % 16 = n := Nat.div_add_mod n 16
  generalize n / 16 = q at hdm ⊢
  generalize n % 16 = r at hdm ⊢
  omega

variable (m : (ℓ : Loc nD τ sig) → Buf (Elt Ideal) ℓ)

/-- Input block t as an array of 524288 words. -/
abbrev xblk (c : Dev nD) (t : Fin cfg0.N) : IVec S524288 32 := iblk m c 0 t

/-- The tile a core's first point starts from reads zero everywhere: a re-laying to the same shape of a broadcast of the
    zero word. -/
theorem zeroTile_apply (j : S32x32.Idx) : zeroTile (F := Ideal) j = 0 := by
  show shapeCast S32x32 (broadcast S32x32 (Scalar.ofBits (F := Ideal) .f32 0x00000000#32))
    Facts₀.shapeCasts_S32x32_S32x32 j = 0
  rw [shapeCast_self]
  exact Ideal.ofBits_zero_f32

variable (c : Dev nD) (X : IVec S16777216 32)
  (hX : ∀ (t : Fin cfg0.N) (n : Fin 524288), (iblk m c 0 t : IVec S524288 32) (ix1 n)
    = X (ix1 ⟨t.val * 524288 + n.val, by have := t.isLt; have := n.isLt; have : cfg0.N = 32 := N_0; omega⟩))

include hX in
/-- The total over block t's 32 chunks counts the flat array's 524288 words from position t · 524288. -/
theorem blockTot (t : Fin cfg0.N) (h l : Fin 32) :
    totUpto (F := Ideal) (xblk m c t) 32 (ix2 h l)
      = cnt (seq X) (t.val * 524288) 524288 (32 * (h.val : ℤ) + (l.val : ℤ)) := by
  have hN : cfg0.N = 32 := N_0
  have ht := t.isLt
  rw [totUpto_apply (xblk m c t) h l 32 (Nat.le_refl 32)]
  have e : 32 * 16384 = 524288 := by norm_num
  rw [e]
  refine cnt_congr _ _ 0 (t.val * 524288) 524288 _ fun k hk => ?_
  rw [Nat.zero_add]
  unfold blockSeq seq
  rw [dif_pos hk, dif_pos (by omega)]
  exact hX t ⟨k, hk⟩

include hX in
/-- A core's first point: the accumulator is zeroed and block n added, so it counts block n. -/
theorem acc_first (n : ℕ) (hn : n < cfg0.N) (h0 : n % 16 = 0) (h l : Fin 32) :
    (outsAt0 m c n hn).2 (ix2 h l)
      = cnt (seq X) (n * 524288) 524288 (32 * (h.val : ℤ) + (l.val : ℤ)) := by
  have h1 : ¬ n % 16 = 15 := by omega
  rw [outsAt0_A m c ⟨n, hn⟩ h0 h1]
  dsimp only
  refine (congrFun (sout0_A_0_eq (F := Ideal) c (grid0.coords ⟨n, hn⟩) (ms0_0 ⟨n, hn⟩) (hs0_0 ⟨n, hn⟩) (ms0_1 ⟨n, hn⟩)
    (hs0_1 ⟨n, hn⟩) scM0_0 (Memref.isWhole_whole _) ((hcond0_0 ⟨n, hn⟩).mpr h0)
    (fun hh => h1 ((hcond0_1 ⟨n, hn⟩).mp hh)) (iblk m c 0 ⟨n, hn⟩)) (ix2 h l)).trans ?_
  rw [shapeCast_self, addf_apply, zeroTile_apply, zero_add]
  exact blockTot m c X hX ⟨n, hn⟩ h l

include hX in
/-- A later point of a core: block n is added to what the point before left. -/
theorem acc_next (n : ℕ) (hn : n < cfg0.N) (h0 : ¬ n % 16 = 0) (h l : Fin 32) :
    (outsAt0 m c n hn).2 (ix2 h l)
      = (outsAt0 m c (n - 1) (Nat.lt_of_le_of_lt (Nat.sub_le _ _) hn)).2 (ix2 h l)
        + cnt (seq X) (n * 524288) 524288 (32 * (h.val : ℤ) + (l.val : ℤ)) := by
  by_cases h1 : n % 16 = 15
  · rw [outsAt0_C m c ⟨n, hn⟩ h0 h1]
    dsimp only
    refine (congrFun (sout0_C_0_eq (F := Ideal) c (grid0.coords ⟨n, hn⟩) (ms0_0 ⟨n, hn⟩) (hs0_0 ⟨n, hn⟩) (ms0_1 ⟨n, hn⟩)
      (hs0_1 ⟨n, hn⟩) scM0_0 (Memref.isWhole_whole _) (fun hh => h0 ((hcond0_0 ⟨n, hn⟩).mp hh))
      ((hcond0_1 ⟨n, hn⟩).mpr h1) (iblk m c 0 ⟨n, hn⟩)
      (outsAt0 m c (n - 1) (Nat.lt_of_le_of_lt (Nat.sub_le _ _) hn)).2) (ix2 h l)).trans ?_
    rw [shapeCast_self, addf_apply]
    exact congrArg (fun z => (outsAt0 m c (n - 1) (Nat.lt_of_le_of_lt (Nat.sub_le _ _) hn)).2 (ix2 h l) + z)
      (blockTot m c X hX ⟨n, hn⟩ h l)
  · rw [outsAt0_B m c ⟨n, hn⟩ h0 h1]
    dsimp only
    refine (congrFun (sout0_B_0_eq (F := Ideal) c (grid0.coords ⟨n, hn⟩) (ms0_0 ⟨n, hn⟩) (hs0_0 ⟨n, hn⟩) (ms0_1 ⟨n, hn⟩)
      (hs0_1 ⟨n, hn⟩) scM0_0 (Memref.isWhole_whole _) (fun hh => h0 ((hcond0_0 ⟨n, hn⟩).mp hh))
      (fun hh => h1 ((hcond0_1 ⟨n, hn⟩).mp hh)) (iblk m c 0 ⟨n, hn⟩)
      (outsAt0 m c (n - 1) (Nat.lt_of_le_of_lt (Nat.sub_le _ _) hn)).2) (ix2 h l)).trans ?_
    rw [shapeCast_self, addf_apply]
    exact congrArg (fun z => (outsAt0 m c (n - 1) (Nat.lt_of_le_of_lt (Nat.sub_le _ _) hn)).2 (ix2 h l) + z)
      (blockTot m c X hX ⟨n, hn⟩ h l)

include hX in
/-- After point n = 16·q + r the accumulator counts core q's words from the core's start through block n. -/
theorem acc_inv : ∀ (n : ℕ) (hn : n < cfg0.N) (h l : Fin 32),
    (outsAt0 m c n hn).2 (ix2 h l)
      = cnt (seq X) (n / 16 * 8388608) ((n % 16 + 1) * 524288) (32 * (h.val : ℤ) + (l.val : ℤ)) := by
  intro n
  induction n using Nat.strong_induction_on with
  | _ n ih =>
    intro hn h l
    have hN : cfg0.N = 32 := N_0
    by_cases h0 : n % 16 = 0
    · -- block n starts the core's half, and is all that has been counted
      rw [acc_first m c X hX n hn h0 h l]
      have e1 : n / 16 * 8388608 = n * 524288 := by omega
      have e2 : (n % 16 + 1) * 524288 = 524288 := by rw [h0]
      rw [e1, e2]
    · -- the stretch counted through block n − 1 ends where block n begins
      rw [acc_next m c X hX n hn h0 h l, ih (n - 1) (by omega) (Nat.lt_of_le_of_lt (Nat.sub_le _ _) hn) h l]
      have e1 : (n - 1) / 16 = n / 16 := by omega
      have e2 : (n - 1) % 16 + 1 = n % 16 := by omega
      have e4 : (n % 16 + 1) * 524288 = n % 16 * 524288 + 524288 := Nat.succ_mul (n % 16) 524288
      rw [e1, e2, e4, cnt_add, ← block_pos n]

include hX in
/-- At a core's last point the output block holds the count over the core's whole half of the flat array. -/
theorem out_last (t : Fin cfg0.N) (h15 : t.val % 16 = 15) (h l : Fin 32) :
    (outsAt0 m c t.val t.isLt).1 (ix3 0 h l)
      = cnt (seq X) (t.val / 16 * 8388608) 8388608 (32 * (h.val : ℤ) + (l.val : ℤ)) := by
  have h0 : ¬ t.val % 16 = 0 := by omega
  -- the output block is the accumulator with a unit axis in front
  have e : (outsAt0 m c t.val t.isLt).1 (ix3 0 h l) = (outsAt0 m c t.val t.isLt).2 (ix2 h l) := by
    rw [outsAt0_C m c t h0 h15]
    dsimp only
    rw [out0_C_1_eq (F := Ideal) c (grid0.coords t) (ms0_0 t) (hs0_0 t) (ms0_1 t) (hs0_1 t) scM0_0 (Memref.isWhole_whole _)
        (fun hh => h0 ((hcond0_0 t).mp hh)) ((hcond0_1 t).mpr h15) (iblk m c 0 t)
        (outsAt0 m c (t.val - 1) (Nat.lt_of_le_of_lt (Nat.sub_le _ _) t.isLt)).2,
      sout0_C_0_eq (F := Ideal) c (grid0.coords t) (ms0_0 t) (hs0_0 t) (ms0_1 t) (hs0_1 t) scM0_0 (Memref.isWhole_whole _)
        (fun hh => h0 ((hcond0_0 t).mp hh)) ((hcond0_1 t).mpr h15) (iblk m c 0 t)
        (outsAt0 m c (t.val - 1) (Nat.lt_of_le_of_lt (Nat.sub_le _ _) t.isLt)).2]
    refine (shapeCast_addUnit_apply (n := 2) ![32, 32] _ Facts₀.shapeCasts_S32x32_S1x32x32 (ix3 0 h l)).trans ?_
    refine congrArg _ (funext fun a => ?_)
    match a with
    | ⟨0, _⟩ => rfl
    | ⟨1, _⟩ => rfl
  rw [e, acc_inv m c X hX t.val t.isLt h l]
  have e2 : (t.val % 16 + 1) * 524288 = 8388608 := by rw [h15]
  rw [e2]

end Cert.Hist

end
-- ==== Proof.KernelBlocks.lean ====
/-
  The kernel's two windows as index arithmetic.  The array the region reads is the argument read row-major; its block at
  grid point t is the stretch of 524288 words from position t · 524288; the result array's block at point t is the slab
  t / 16 of the (2, 32, 32) array, and an index of that array lies in the block exactly when its first coordinate is t / 16.
-/
import proofs.«411108_j32641751450044_3_alg».proof.Proof.Gen.KernelIdeal.Frame
import proofs.«411108_j32641751450044_3_alg».proof.Proof.Spec
import Idealize.ShloMosaic.Lib.Pipeline.Value
import Idealize.ShloMosaic.Lib.StableHlo.Run

noncomputable section

namespace Cert.Hist

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The array the region finds is the argument read row-major. -/
theorem flat_entry (c : Dev nD) :
    (V m c main_v0 : IVec S16777216 32) = flatOf (m ((c : Thread nD τ).loc main_arg0)) := by
  show StableHlo.after hostOps0 (fun b => m (c, b)) (Proc.devRef .tc main_v0) = _
  after_results
  funext i
  show shapeCast S16777216 (m ((c : Thread nD τ).loc main_arg0) : IVec S16x1048576 32) shapeCasts_S16x1048576_S16777216 i = _
  unfold flatOf
  exact shapeCast_apply _ shapeCasts_S16x1048576_S16777216 i _
    (by rewrite [Shape.rowMajor_val_two, Shape.rowMajor_val_one]; have h0 : (i 0).val < 16777216 := (i 0).isLt
        show (i 0).val / 1048576 * 1048576 + (i 0).val % 1048576 = (i 0).val; omega)

/-- The grid has 32 points. -/
theorem pt_lt (t : Fin cfg0.N) : t.val < 32 := Nat.lt_of_lt_of_eq t.isLt N_0

/-- The input window's block index at point t is t itself (16 · row + column of the (2, 16) grid). -/
theorem in_index : ∀ t : Fin grid0.N, win0_0.index t 0 = t.val := by decide +kernel

/-- Input block t is the flat array's stretch of 524288 words from position t · 524288. -/
theorem in_block (c : Dev nD) (t : Fin cfg0.N) (n : Fin 524288) :
    (iblk m c 0 t : IVec S524288 32) (ix1 n)
      = (V m c main_v0 : IVec S16777216 32)
          (ix1 ⟨t.val * 524288 + n.val, by have := pt_lt t; have := n.isLt; omega⟩) := by
  unfold iblk
  rw [View.read_apply]
  show V m c main_v0 _ = V m c main_v0 _
  congr 1
  funext a
  apply Fin.ext
  match a with
  | ⟨0, _⟩ =>
    show win0_0.index t 0 * 524288 + 1 * n.val = t.val * 524288 + n.val
    rw [in_index t]; omega

/-- The output window's block index at point t: slab t / 16 on the leading axis, zero on the other two. -/
theorem out_index : ∀ t : Fin grid0.N,
    win0_1.index t 0 = t.val / 16 ∧ win0_1.index t 1 = 0 ∧ win0_1.index t 2 = 0 := by decide +kernel

/-- Output block t read back from the result array is the slab t / 16 of it. -/
theorem out_block_read (t : Fin cfg0.N) (A : FVec F S2x32x32 .f32) (y : S1x32x32.Idx) :
    (((cfg0.win 1).blk t).view.read (Elt F) A y : F .f32)
      = A (ix3 ⟨t.val / 16, by have := pt_lt t; omega⟩ (y 1) (y 2)) := by
  rw [View.read_apply]
  show A _ = A _
  congr 1
  funext a
  apply Fin.ext
  have h0 : (y 0).val < 1 := (y 0).isLt
  match a with
  | ⟨0, _⟩ =>
    show win0_1.index t 0 * 1 + 1 * (y 0).val = t.val / 16
    rw [(out_index t).1]; omega
  | ⟨1, _⟩ =>
    show win0_1.index t 1 * 32 + 1 * (y 1).val = (y 1).val
    rw [(out_index t).2.1]; omega
  | ⟨2, _⟩ =>
    show win0_1.index t 2 * 32 + 1 * (y 2).val = (y 2).val
    rw [(out_index t).2.2]; omega

/-- An index of the result array lies in output block t exactly when its leading coordinate is t / 16. -/
theorem out_block_mem (t : Fin cfg0.N) (i : S2x32x32.Idx) :
    i ∈ ((cfg0.win 1).blk t).view.set ↔ (i 0).val = t.val / 16 := by
  show i ∈ ((View.whole main_v1).slice (win0_1.rect t)).set ↔ _
  rw [View.set_slice_whole, Rect.mem_set_unit]
  have h1 : (i 1).val < 32 := (i 1).isLt
  have h2 : (i 2).val < 32 := (i 2).isLt
  constructor
  · intro h
    have h' : win0_1.index t 0 * 1 ≤ (i 0).val ∧ (i 0).val < win0_1.index t 0 * 1 + 1 := h 0
    rw [(out_index t).1] at h'; omega
  · intro h a
    match a with
    | ⟨0, _⟩ =>
      show win0_1.index t 0 * 1 ≤ (i 0).val ∧ (i 0).val < win0_1.index t 0 * 1 + 1
      rw [(out_index t).1]; omega
    | ⟨1, _⟩ =>
      show win0_1.index t 1 * 32 ≤ (i 1).val ∧ (i 1).val < win0_1.index t 1 * 32 + 32
      rw [(out_index t).2.1]; omega
    | ⟨2, _⟩ =>
      show win0_1.index t 2 * 32 ≤ (i 2).val ∧ (i 2).val < win0_1.index t 2 * 32 + 32
      rw [(out_index t).2.2]; omega

end Cert.Hist

end
-- ==== Proof.Tail.lean ====
/-
  After the region: the two cores' 32 × 32 count tiles are added, scaled by 2^-24, and the entropy sum and its exponential
  are taken.  If tile c holds, at (h, l), the count of 32·h + l over core c's half of the flat array, the sum of the two
  tiles is the count over the whole array, (h, l) ↦ 32·h + l runs once through the bins 0 … 1023, and the result is the
  specification's.
-/
import proofs.«411108_j32641751450044_3_alg».proof.KernelIdeal
import proofs.«411108_j32641751450044_3_alg».proof.Proof.Spec
import Idealize.ShloMosaic.PureOps.Ideal.Laws

noncomputable section

namespace Cert.Hist

open Idealize.ShloMosaic Idealize.ShloMosaic.ValueIdx Cert.KernelIdeal

variable {F : FTy → Type} [FloatOps F] [Cert.KernelIdeal.Facts]
open Cert.KernelIdeal.Facts₀

/-- The host operations after the region, as one function of the region's output. -/
def tail (out : FVec F S2x32x32 .f32) : FVec F S_ .f32 :=
  Host.exp (Host.negf (Host.reduceAdd
    (mulf
      (mulf (Host.reduceAdd out (constant S_ .f32 0x00000000#32) reducesTo_S2x32x32_S32x32_d0 h_S_)
        (broadcastInDim S32x32 ![] bcast_S_S32x32 (constant S_ .f32 0x33800000#32)))
      (Host.log (addf
        (mulf (Host.reduceAdd out (constant S_ .f32 0x00000000#32) reducesTo_S2x32x32_S32x32_d0 h_S_)
          (broadcastInDim S32x32 ![] bcast_S_S32x32 (constant S_ .f32 0x33800000#32)))
        (broadcastInDim S32x32 ![] bcast_S_S32x32 (constant S_ .f32 0x322BCC77#32)))))
    (constant S_ .f32 0x00000000#32) reducesTo_S32x32_S_d0_1 h_S_))

/-- The scaling word: sign 0, exponent field 103, fraction 0, which is 2^23 · 2^(103 - 127 - 23) = 2^-24. -/
private theorem ofBits_inv_two_pow_24 : Ideal.ofBits .f32 0x33800000#32 = ((1 / 16777216 : ℝ) : EReal) := by
  simp [Ideal.ofBits, Ideal.ieee, -EReal.coe_mul]; norm_num

/-- The two tiles added: entry (h, l) of the sum is the count of 32·h + l over the whole array, the two halves'
    counts being the counts of the two consecutive stretches of length 2^23. -/
private theorem tiles_sum (out : FVec Ideal S2x32x32 .f32) (v : IVec ⟨1, ![16777216]⟩ 32)
    (hout : ∀ (c : Fin 2) (h l : Fin 32),
      out (ix3 c h l) = cnt (seq v) (c.val * 8388608) 8388608 (32 * (h.val : ℤ) + (l.val : ℤ)))
    (h l : Fin 32) :
    Host.reduceAdd out (constant S_ .f32 0x00000000#32) reducesTo_S2x32x32_S32x32_d0 h_S_ (ix2 h l)
      = cnt (seq v) 0 16777216 (32 * (h.val : ℤ) + (l.val : ℤ)) := by
  have hR : S2x32x32.Reduces [0] S32x32 := by decide
  simp only [Host.reduceAdd, Ideal.hostReduceAdd_def]
  rw [Ideal.hostReduceAdd_single reducesTo_S2x32x32_S32x32_d0 hR]
  -- the inserted index over (h, l) with tile coordinate c is (c, h, l)
  have e : ∀ c : Fin 2, hR.lift (ix2 h l) c = ix3 c h l := by
    intro c; funext d
    match d with
    | ⟨0, _⟩ => rfl
    | ⟨1, _⟩ => rfl
    | ⟨2, _⟩ => rfl
  show constant (F := Ideal) S_ .f32 0x00000000#32 (Shape.Idx.first h_S_) + ∑ c : Fin 2, out (hR.lift (ix2 h l) c) = _
  rw [constant_apply, Ideal.ofBits_zero_f32, zero_add, Fin.sum_univ_two, e 0, e 1, hout 0 h l, hout 1 h l]
  -- the whole array is its first 2^23 positions followed by its last 2^23
  have hc := cnt_add (seq v) 0 8388608 8388608 (32 * (h.val : ℤ) + (l.val : ℤ))
  have h2 : (8388608 : ℕ) + 8388608 = 16777216 := by norm_num
  rw [h2] at hc
  rw [hc]
  simp only [Fin.val_zero, Fin.val_one, Nat.zero_mul, Nat.one_mul, Nat.zero_add]

/-- One entry of the summed array: where the added tiles read N, the scaled-and-logged product reads the entropy term of
    N · 2^-24.  A broadcast constant reads its word at every index, and the smoothing word is carried, not evaluated. -/
private theorem entry_term (T : FVec Ideal S32x32 .f32) (j : S32x32.Idx) (N : EReal) (hT : T j = N) :
    mulf
      (mulf T (broadcastInDim S32x32 ![] bcast_S_S32x32 (constant S_ .f32 0x33800000#32)))
      (Host.log (addf
        (mulf T (broadcastInDim S32x32 ![] bcast_S_S32x32 (constant S_ .f32 0x33800000#32)))
        (broadcastInDim S32x32 ![] bcast_S_S32x32 (constant S_ .f32 0x322BCC77#32)))) j
      = term (N * ((1 / 16777216 : ℝ) : EReal)) := by
  show (T j * Ideal.ofBits .f32 0x33800000#32)
      * Ideal.log (T j * Ideal.ofBits .f32 0x33800000#32 + Ideal.ofBits .f32 0x322BCC77#32) = _
  rw [hT, ofBits_inv_two_pow_24]
  rfl

/-- The pairs (h, l) with h, l < 32 run once through the bins: (h, l) ↦ l + 32·h is a bijection onto 0 … 1023. -/
private theorem sum_bins (g : ℤ → EReal) :
    ∑ a : Fin 32, ∑ b : Fin 32, g (32 * (a.val : ℤ) + (b.val : ℤ)) = ∑ y : Fin 1024, g (y.val : ℤ) := by
  calc ∑ a : Fin 32, ∑ b : Fin 32, g (32 * (a.val : ℤ) + (b.val : ℤ))
      = ∑ x : Fin 32 × Fin 32, g (((finProdFinEquiv x : Fin (32 * 32)).val : ℤ)) := by
        rw [Fintype.sum_prod_type]
        refine Finset.sum_congr rfl fun a _ => Finset.sum_congr rfl fun b _ => congrArg g ?_
        show _ = ((b.val + 32 * a.val : ℕ) : ℤ)
        push_cast; ring
    _ = ∑ y : Fin (32 * 32), g (y.val : ℤ) :=
        Equiv.sum_comp finProdFinEquiv (fun y : Fin (32 * 32) => g (y.val : ℤ))
    _ = ∑ y : Fin 1024, g (y.val : ℤ) := rfl

/-- From the two half-array count tiles to the perplexity of the whole array's histogram. -/
theorem tail_eq (out : FVec Ideal S2x32x32 .f32) (v : IVec ⟨1, ![16777216]⟩ 32)
    (hout : ∀ (c : Fin 2) (h l : Fin 32),
      out (ix3 c h l) = cnt (seq v) (c.val * 8388608) 8388608 (32 * (h.val : ℤ) + (l.val : ℤ))) :
    tail (F := Ideal) out = fun _ => G v := by
  funext i
  -- the added tiles, entry by entry, then forgotten as a term
  have hT := tiles_sum out v hout
  unfold tail
  generalize Host.reduceAdd out (constant S_ .f32 0x00000000#32) reducesTo_S2x32x32_S32x32_d0 h_S_ = T at hT ⊢
  -- the sum over both axes from the zero word is the plain sum over all 32 × 32 entries
  simp only [Host.exp, Host.negf, Host.reduceAdd, Ideal.hostReduceAdd_def, Ideal.hostUnary_exp_def, Ideal.hostNegf_def,
    Ideal.negf_def]
  rw [Ideal.hostReduceAdd_total reducesTo_S32x32_S_d0_1 (fun b => b.elim0)]
  unfold G
  refine congrArg Ideal.exp (congrArg Neg.neg ?_)
  rw [constant_apply, Ideal.ofBits_zero_f32, zero_add, sum_idx2]
  -- each entry is the entropy term of its bin's share, and the entries run once through the bins
  refine Eq.trans ?_ (sum_bins (fun b => term (prob v b)))
  refine Finset.sum_congr rfl fun a _ => Finset.sum_congr rfl fun b _ => ?_
  exact entry_term T (ix2 a b) _ (hT a b)

end Cert.Hist

end
-- ==== Proof.KernelTailRead.lean ====
/-
  From the run to the result.  The program is one host operation, the region, then fourteen host operations.  The frame
  run of the generated modules ends with every buffer that is no array of the region at what the later operations leave
  there, started from the region's exit contents: the region's arrays at what the body left, every other buffer as the
  region found it.  Here that is read at two buffers.  At the result buffer the fourteen operations, folded in order,
  are one function of the region's output array: the two tiles added, scaled, the entropy sum and its exponential.  At
  the argument nothing was written, so it ends as launched.
-/
import proofs.«411108_j32641751450044_3_alg».proof.Proof.Gen.KernelIdeal.Frame
import proofs.«411108_j32641751450044_3_alg».proof.Proof.Tail

noncomputable section

namespace Cert.Hist

open Idealize.ShloMosaic Idealize.ShloMosaic.TcCoe Idealize.SL.Sem
open Cert.KernelIdeal Cert.KernelIdeal.Gen

variable {F : FTy → Type} [FloatOps F] (m : (ℓ : Loc nD τ sig) → Buf (Elt F) ℓ)

/-- The result buffer after the host operations that follow the region is those operations, as one function, applied to
    the array the region leaves. -/
theorem tail_read (c : Dev nD) (OUT : FVec F S2x32x32 .f32)
    (hfinal : (dats m 0 c).arrAt 1 cfg0.N = OUT) :
    Pipeline.afterTail₀ cfgs (dats m) 0 (V0 m) [hostOps1] c main_v11 = tail OUT := by
  have hA : Pipeline.withArrays (cfgs 0).spec c (V0 m c) (fun w => (dats m 0 c).arrAt w (cfgs 0).N)
      (Proc.devRef .tc main_v1) = OUT :=
    (Pipeline.withArrays_arr spec0 launch0.win.arr_inj c _ _ 1).trans hfinal
  unfold Pipeline.afterTail₀
  simp only [hostOps1, List.flatten_cons, List.flatten_nil, List.append_nil]
  show StableHlo.after _ _ (Proc.devRef .tc main_v11) = _
  after_results
  rw [hA]
  rfl

/-- Every weakly fair execution ends with the result buffer at what the host operations after the region compute from the
    region's exit contents, and with the argument as launched. -/
theorem result_read (ρ : Dev nD → PrngReg) :
    θ_run defs (onTc (τ := τ) (main (F := F))) ⟨m, fun _ => 0, ρ⟩ (fun r => ∀ c : Dev nD,
      r.2.mem ((c.tc : Thread nD τ).loc main_v11) = Pipeline.afterTail₀ cfgs (dats m) 0 (V0 m) [hostOps1] c main_v11
      ∧ r.2.mem ((c.tc : Thread nD τ).loc main_arg0) = m ((c.tc : Thread nD τ).loc main_arg0)) :=
  (θ_run defs _ _).mono (fun _ h c =>
    ⟨(h c).2 main_v11 (Pipeline.mem_restRefs_of main_v11 (by decide) (by decide)),
     ((h c).2 main_arg0 (Pipeline.mem_restRefs_of main_arg0 (by decide) (by decide))).trans (W_main_arg0 m (dats m) c)⟩)
    (run_main m ρ)

end Cert.Hist

end
-- ==== Proof.KernelValue.lean ====
/-
  The kernel's run, read.  Output tile c of the region's result holds, at (h, l), the count of 32·h + l over core c's half of
  the flat array: the two write-backs happen at each core's last point, where the accumulator has counted the core's 16
  blocks, and tile c is block 16·c + 15's.  The host operations after the region turn the two tiles into the perplexity of
  the whole array's histogram.
-/
import proofs.«411108_j32641751450044_3_alg».proof.Proof.KernelPoints
import proofs.«411108_j32641751450044_3_alg».proof.Proof.KernelBlocks
import proofs.«411108_j32641751450044_3_alg».proof.Proof.KernelTailRead
import proofs.«411108_j32641751450044_3_alg».proof.Proof.Tail

set_option maxRecDepth 16384

noncomputable section

namespace Cert.Hist

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-- The flat array as the region finds it. -/
abbrev flatV (c : Dev nD) : IVec S16777216 32 := V m c main_v0

/-- What the region's result array ends holding: tile c counts core c's half of the flat array. -/
def outArr (c : Dev nD) : FVec Ideal S2x32x32 .f32 := fun i =>
  cnt (seq (flatV m c)) ((i 0).val * 8388608) 8388608 (32 * ((i 1).val : ℤ) + ((i 2).val : ℤ))

/-- A write-back point (the last of its core) writes its core's tile. -/
theorem flushed_eq (c : Dev nD) (t : Fin cfg0.N) (hf : (cfg0.win 1).flush t = true) :
    (dats m 0 c).flushed 1 t = ((cfg0.win 1).blk t).view.read (Elt Ideal) (outArr m c) := by
  have h15 : t.val % 16 = 15 := (flush0_1 t).mp hf
  have hq : t.val / 16 < 2 := by have := pt_lt t; omega
  have key : ∀ Y : S1x32x32.Idx,
      (outsAt0 m c t.val t.isLt).1 Y = outArr m c (ix3 ⟨t.val / 16, hq⟩ (Y 1) (Y 2)) := by
    intro Y
    have hY : Y = ix3 0 (Y 1) (Y 2) := by
      funext a
      match a with
      | ⟨0, _⟩ => exact Fin.ext (by have h1 : (Y 0).val < 1 := (Y 0).isLt; show (Y 0).val = 0; omega)
      | ⟨1, _⟩ => rfl
      | ⟨2, _⟩ => rfl
    refine (congrArg (outsAt0 m c t.val t.isLt).1 hY).trans ?_
    exact out_last m c (flatV m c) (in_block m c) t h15 (Y 1) (Y 2)
  funext y
  show (cfg0.win 1).cut (grid0.coords t) ((dats m 0 c).after 1 t) y = _
  rw [after0_1]
  show (outsAt0 m c t.val t.isLt).1 ((cfg0.win 1).xinj (grid0.coords t) y) = _
  rw [key, out_block_read t (outArr m c) y]

/-- Every entry of the result array lies in the tile of its core's last point, so the array ends at `outArr`. -/
theorem final (c : Dev nD) : (dats m 0 c).arrAt 1 cfg0.N = outArr m c :=
  (dats m 0 c).arrAt_eq_of_cover 1 (outArr m c) (flushed_eq m c) fun i => by
    have h0 : (i 0).val < 2 := (i 0).isLt
    exact ⟨⟨(i 0).val * 16 + 15, by rw [show cfg0.N = 32 from N_0]; omega⟩,
      (flush0_1 _).mpr (by show ((i 0).val * 16 + 15) % 16 = 15; omega),
      (out_block_mem _ i).mpr (by show (i 0).val = ((i 0).val * 16 + 15) / 16; omega)⟩

/-- Every weakly fair execution of the idealized kernel program ends with its result at the perplexity of the flat
    argument's histogram, the argument unchanged. -/
theorem kernel_run : θ_run (defs (F := Ideal)) (onTc (τ := τ) (main (F := Ideal))) ⟨m, fun _ => 0, ρ⟩ (fun r => ∀ c : Dev nD,
    r.2.mem ((c.tc : Thread nD τ).loc main_v11) = (fun _ => G (flatOf (m ((c.tc : Thread nD τ).loc main_arg0))))
    ∧ r.2.mem ((c.tc : Thread nD τ).loc main_arg0) = m ((c.tc : Thread nD τ).loc main_arg0)) :=
  (θ_run defs _ _).mono (fun r h c => ⟨(h c).1.trans ((tail_read m c (outArr m c) (final m c)).trans
      ((tail_eq (outArr m c) (flatV m c) (fun c' h l => rfl)).trans
        (congrArg (fun v => fun _ => G v) (flat_entry m c)))), (h c).2⟩)
    (result_read m ρ)

end Cert.Hist

end
-- ==== Proof.ScatterCount.lean ====
/-
  The reference's histogram: a scatter-add of ones into a zero array of 1024 words, one update per position of the flat
  array, at the position's own word as the index.  Read at bin `b`, as a signed integer, it is the number of positions
  whose index word reads `b`: an update whose index falls outside 0 … 1023 is dropped, the others add one to their bin,
  and 2^24 ones cannot wrap a 32-bit word.

  The scatter is a left fold of one step per update position.  The proof, for any number `N` of positions and any number
  `M` of bins (nothing below evaluates either):
    * with one scattered axis, no window axis and the index vector on the second axis of the indices, the start of
      position `j` is the signed reading of the word at `(j, 0)` and the window coordinate is `0`; so the step lands at bin
      `t` when that reading `t` has `0 ≤ t < M`, and is dropped otherwise;
    * hence, read at a fixed bin `b`, a step adds one exactly when the position's word reads `b`, and the fold over any
      list of positions leaves at `b` the start value plus the number of such positions in the list, as a 32-bit word;
    * over all positions that number is at most `N < 2^31`, so the word's signed value is the number itself;
    * the number of list elements with a property is the sum of the property's indicator, and the positions in
      row-major order are the coordinates `0 … N - 1`.
-/
import proofs.«411108_j32641751450044_3_alg».proof.ReferenceIdeal
import proofs.«411108_j32641751450044_3_alg».proof.Proof.Spec

noncomputable section

namespace Cert.Hist

open Idealize.ShloMosaic Idealize.ShloMosaic.ValueIdx Cert.ReferenceIdeal

namespace ScatterCount

/-! ## One step of the scatter: where an update lands -/

section Step

variable {N M : ℕ}

/-- A rank-1 index has one axis: its coordinate at any axis is its coordinate at axis 0. -/
theorem idx1_val (j : (⟨1, ![N]⟩ : Shape).Idx) (a : Fin 1) : (j a).val = (j 0).val := by
  obtain rfl := Fin.eq_zero a; rfl

variable (d : ScatterDims (⟨1, ![M]⟩ : Shape) ⟨2, ![N, 1]⟩ ⟨1, ![N]⟩)

/-- Where position `j` reads its (one-component) start index: row `j`, column `0` of the indices. -/
theorem siIdx_eq (h3 : d.scatterDimsToOperandDims = [0]) (h4 : d.indexVectorDim = 1)
    (j : (⟨1, ![N]⟩ : Shape).Idx) (c : Fin d.scatterDimsToOperandDims.length) :
    d.siIdx j c = ix2 (j 0) 0 := by
  funext b
  apply Fin.ext
  match b with
  | ⟨0, _⟩ =>
    simp only [ScatterDims.siIdx]
    rw [dif_neg (by simp [h4])]
    simp only [ScatterDims.siCoord, Fin.coe_cast]
    exact idx1_val j _
  | ⟨1, _⟩ =>
    simp only [ScatterDims.siIdx]
    rw [dif_pos (by simp [h4])]
    have hl : d.scatterDimsToOperandDims.length = 1 := by rw [h3]; rfl
    have := c.isLt
    show c.val = 0
    omega

/-- The start on the operand's one axis: the position's index word, read signed. -/
theorem start_eq (h3 : d.scatterDimsToOperandDims = [0]) (h4 : d.indexVectorDim = 1) {w : ℕ}
    (j : (⟨1, ![N]⟩ : Shape).Idx) (idx : IVec ⟨2, ![N, 1]⟩ w) (a : Fin 1) :
    d.start j idx a = (idx (ix2 (j 0) 0)).toInt := by
  obtain rfl := Fin.eq_zero a
  unfold ScatterDims.start
  rw [dif_pos (by rw [h3]; exact List.mem_singleton_self _)]
  rw [siIdx_eq d h3 h4]
  rfl

/-- The operand's one axis is an inserted one: there is no window coordinate on it. -/
theorem window_eq (h2 : d.insertedWindowDims = [0]) (j : (⟨1, ![N]⟩ : Shape).Idx) (a : Fin 1) :
    d.window j a = 0 := by
  obtain rfl := Fin.eq_zero a
  unfold ScatterDims.window
  rw [dif_neg]
  simp [ScatterDims.sKept, Shape.kept, h2]

/-- Start plus window coordinate, on the operand's one axis: the position's index word, read signed. -/
theorem start_add_window {w : ℕ} (h2 : d.insertedWindowDims = [0]) (h3 : d.scatterDimsToOperandDims = [0])
    (h4 : d.indexVectorDim = 1) (j : (⟨1, ![N]⟩ : Shape).Idx) (idx : IVec ⟨2, ![N, 1]⟩ w) (a : Fin 1) :
    d.start j idx a + (d.window j a : ℤ) = (idx (ix2 (j 0) 0)).toInt := by
  rw [start_eq d h3 h4, window_eq d h2]; simp

/-- An update that lands, lands at the bin its index word reads. -/
theorem resultIdx_some {w : ℕ} (h2 : d.insertedWindowDims = [0]) (h3 : d.scatterDimsToOperandDims = [0])
    (h4 : d.indexVectorDim = 1) (j : (⟨1, ![N]⟩ : Shape).Idx) (idx : IVec ⟨2, ![N, 1]⟩ w)
    (i : (⟨1, ![M]⟩ : Shape).Idx) (hi : d.resultIdx? j idx = some i) :
    (idx (ix2 (j 0) 0)).toInt = ((i 0).val : ℤ) := by
  unfold ScatterDims.resultIdx? at hi
  split at hi
  · next hin =>
    have hi' := Option.some.inj hi
    have h0 := hin 0
    rw [start_add_window d h2 h3 h4] at h0
    rw [← hi']
    show _ = (((d.start j idx 0 + (d.window j 0 : ℤ)).toNat : ℕ) : ℤ)
    rw [start_add_window d h2 h3 h4]; omega
  · exact absurd hi (by simp)

/-- An update is dropped only when its index word reads outside the bins. -/
theorem resultIdx_none {w : ℕ} (h2 : d.insertedWindowDims = [0]) (h3 : d.scatterDimsToOperandDims = [0])
    (h4 : d.indexVectorDim = 1) (j : (⟨1, ![N]⟩ : Shape).Idx) (idx : IVec ⟨2, ![N, 1]⟩ w)
    (hi : d.resultIdx? j idx = none) (b : Fin M) :
    (idx (ix2 (j 0) 0)).toInt ≠ (b.val : ℤ) := by
  have hb := b.isLt
  unfold ScatterDims.resultIdx? at hi
  split at hi
  · exact absurd hi (by simp)
  · next hin =>
    intro ht; apply hin; intro a
    rw [start_add_window d h2 h3 h4, ht]
    obtain rfl := Fin.eq_zero a
    constructor
    · omega
    · show (b.val : ℤ) < (M : ℤ); omega

end Step

/-! ## The fold, read at one bin, and the count as a sum -/

section Fold

/-- A left fold whose step, read at one place, adds one exactly at the elements satisfying `p`: the place ends at
    its start value plus the number of such elements of the list, as a 32-bit word. -/
theorem foldl_read_count {I γ : Type} (step : (I → BitVec 32) → γ → (I → BitVec 32)) (p : γ → Prop)
    [DecidablePred p] (i0 : I) (hstep : ∀ r n, step r n i0 = if p n then r i0 + 1#32 else r i0) :
    ∀ (l : List γ) (x : I → BitVec 32), (l.foldl step x) i0 = x i0 + BitVec.ofNat 32 (l.countP p) := by
  intro l
  induction l with
  | nil => intro x; simp
  | cons n l ih =>
    intro x
    rw [List.foldl_cons, ih, hstep, List.countP_cons]
    by_cases hp : p n
    · simp only [hp, if_true, decide_true]
      rw [BitVec.ofNat_add, BitVec.add_assoc, BitVec.add_comm (1#32)]
    · simp [hp]

/-- The number of elements of a list satisfying `p`, as an extended real, is the sum of the indicator of `p`. -/
theorem countP_eq_sum {γ : Type} (p : γ → Prop) [DecidablePred p] (l : List γ) :
    (((l.countP p : ℕ) : ℝ) : EReal) = (l.map fun n => if p n then (1 : EReal) else 0).sum := by
  induction l with
  | nil => simp
  | cons n l ih =>
    rw [List.countP_cons, List.map_cons, List.sum_cons, ← ih]
    by_cases hp : p n
    · simp only [hp, if_true, decide_true]
      push_cast
      rw [add_comm]
    · simp [hp]

end Fold

/-! ## The scatter-add of ones, for any number of positions below 2^31 and any number of bins -/

section Main

variable {N M : ℕ}

/-- A rank-1 index is its one coordinate. -/
def idx1Equiv : Fin N ≃ (⟨1, ![N]⟩ : Shape).Idx where
  toFun := ix1
  invFun j := j 0
  left_inv _ := rfl
  right_inv j := (eq_ix1 j).symm

/-- A rank-1 shape has as many elements as its one extent. -/
theorem numel_one : (⟨1, ![N]⟩ : Shape).numel = N := by simp [Shape.numel]

/-- Bin `b` after scatter-adding a one per position into zeros: the number of positions whose word reads `b`. -/
theorem scatter_count_gen (d : ScatterDims (⟨1, ![M]⟩ : Shape) ⟨2, ![N, 1]⟩ ⟨1, ![N]⟩)
    (h2 : d.insertedWindowDims = [0]) (h3 : d.scatterDimsToOperandDims = [0]) (h4 : d.indexVectorDim = 1)
    (hN : N < 2 ^ 31)
    (zero : IVec ⟨1, ![M]⟩ 32) (one : IVec ⟨1, ![N]⟩ 32) (idx : IVec ⟨2, ![N, 1]⟩ 32)
    (hz : ∀ i, zero i = 0#32) (ho : ∀ i, one i = 1#32) (b : Fin M) :
    ((((Host.scatter d IntOp.addi zero idx one) (ix1 b)).toInt : ℝ) : EReal)
      = ∑ n : Fin N, hit (idx (ix2 n 0)) (b.val : ℤ) := by
  let u : Shape := ⟨1, ![N]⟩
  -- the row-major positions whose index word reads `b`
  let P : Fin u.numel → Prop := fun n => (idx (ix2 ((u.rowMajor.symm n) 0) 0)).toInt = (b.val : ℤ)
  -- the fold leaves at `b` the number of such positions, as a word
  have hfold : (Host.scatter d IntOp.addi zero idx one) (ix1 b)
      = BitVec.ofNat 32 ((List.finRange u.numel).countP P) := by
    unfold Host.scatter
    refine (foldl_read_count _ P (ix1 b) ?_ _ _).trans ?_
    · intro r n
      cases hi : d.resultIdx? (u.rowMajor.symm n) idx with
      | some i =>
        dsimp only
        have ht := resultIdx_some d h2 h3 h4 _ idx i hi
        by_cases hp : P n
        · have hib : ix1 b = i := by
            rw [eq_ix1 i]; congr 1; apply Fin.ext
            have : ((i 0).val : ℤ) = (b.val : ℤ) := ht.symm.trans hp
            exact_mod_cast this.symm
          rw [if_pos hp, if_pos hib, ← hib, ho]; rfl
        · have hib : ix1 b ≠ i := by
            intro h; apply hp; show _ = _; rw [ht, ← h]; rfl
          rw [if_neg hp, if_neg hib]
      | none =>
        dsimp only
        rw [if_neg (resultIdx_none d h2 h3 h4 _ idx hi b)]
    · rw [hz, BitVec.zero_add]
  -- that number is at most the number of positions, so the word does not wrap
  have hC : (List.finRange u.numel).countP P ≤ N :=
    calc (List.finRange u.numel).countP P ≤ (List.finRange u.numel).length := List.countP_le_length
      _ = N := by rw [List.length_finRange]; exact numel_one
  have htoInt : (BitVec.ofNat 32 ((List.finRange u.numel).countP P)).toInt
      = (((List.finRange u.numel).countP P : ℕ) : ℤ) := by
    rw [BitVec.toInt_eq_toNat_cond, BitVec.toNat_ofNat]
    have hm : (List.finRange u.numel).countP P % 2 ^ 32 = (List.finRange u.numel).countP P :=
      Nat.mod_eq_of_lt (by omega)
    rw [hm, if_pos (by omega)]
  -- the count as a sum of indicators over the row-major positions, then over the coordinates
  rw [hfold, htoInt, Int.cast_natCast, countP_eq_sum, ← Fin.sum_univ_def]
  refine (Equiv.sum_comp (idx1Equiv.trans u.rowMajor) _).symm.trans ?_
  refine Finset.sum_congr rfl fun k _ => ?_
  show (if (idx (ix2 ((u.rowMajor.symm (u.rowMajor (ix1 k))) 0) 0)).toInt = (b.val : ℤ) then (1 : EReal) else 0) = _
  rw [Equiv.symm_apply_apply]
  rfl

end Main

end ScatterCount

variable [Cert.ReferenceIdeal.Facts]

/-- Bin `b` of the scatter-add of ones, as a real: how many positions carry an index word that reads `b`. -/
theorem scatter_count (zero : IVec S1024 32) (one : IVec S16777216 32) (idx : IVec S16777216x1 32)
    (hz : ∀ i, zero i = 0#32) (ho : ∀ i, one i = 1#32) (b : Fin 1024) :
    ((((Host.scatter scatter_S1024_S16777216x1_S16777216_n_0_0_1 IntOp.addi zero idx one) (ix1 b)).toInt : ℝ) : EReal)
      = ∑ n : Fin 16777216, hit (idx (ix2 n 0)) (b.val : ℤ) :=
  ScatterCount.scatter_count_gen scatter_S1024_S16777216x1_S16777216_n_0_0_1 rfl rfl rfl (by norm_num)
    zero one idx hz ho b

end Cert.Hist

end
-- ==== Proof.RefValue.lean ====
/-
  The reference's result is the specification's function of the flat array, where no entry is negative: the clamp at zero
  then changes nothing, the compare-and-wrap after it never fires, the scatter-add counts each bin (ScatterCount), the
  quotient by 2^24 is the product with its reciprocal, and the rest is the entropy sum as written.
-/
import proofs.«411108_j32641751450044_3_alg».proof.Proof.Gen.ReferenceIdeal.Read
import proofs.«411108_j32641751450044_3_alg».proof.Proof.ScatterCount

noncomputable section

namespace Cert.Hist.Ref

open Idealize.ShloMosaic Idealize.ShloMosaic.ValueIdx Cert.ReferenceIdeal Cert.ReferenceIdeal.Read Cert.Hist

variable [Cert.ReferenceIdeal.Facts]

/-- The reshape reads the (16, 1048576) argument row-major: position n is row n / 1048576, column n % 1048576. -/
theorem flat_eq (x0 : IVec S16x1048576 32) (i : S16777216.Idx) :
    val_main_v0 (F := Ideal) x0 i = flatOf x0 i := by
  rw [val_main_v0_apply]
  unfold flatOf
  congr 1
  funext a
  match a with
  | ⟨0, _⟩ => rfl
  | ⟨1, _⟩ => rfl

/-- A word that is not negative is not below zero in the signed order. -/
theorem not_slt_zero (w : BitVec 32) (h : 0 ≤ w.toInt) : w.slt 0#32 = false := by
  rw [BitVec.slt, BitVec.toInt_zero]
  exact decide_eq_false (not_lt.mpr h)

/-- Every entry of the flat array is an entry of the argument, so none is negative. -/
theorem flat_nonneg (x0 : IVec S16x1048576 32) (hpos : ∀ i, 0 ≤ (x0 i).toInt) (i : S16777216.Idx) :
    0 ≤ (flatOf x0 i).toInt := by
  unfold flatOf
  exact hpos _

/-- The clamp at zero leaves a non-negative entry as it is. -/
theorem clamp_eq (x0 : IVec S16x1048576 32) (hpos : ∀ i, 0 ≤ (x0 i).toInt) (i : S16777216.Idx) :
    val_main_v2 (F := Ideal) x0 i = flatOf x0 i := by
  rw [val_main_v2_apply, val_main_call0_v1_apply, val_main_call0_v0_apply, val_main_c_0_apply, flat_eq]
  unfold IntOp.maxsi
  rw [not_slt_zero _ (flat_nonneg x0 hpos i)]
  rfl

/-- The wrap of negative indices never fires: the select keeps the clamped entry. -/
theorem wrap_eq (x0 : IVec S16x1048576 32) (hpos : ∀ i, 0 ≤ (x0 i).toInt) (i : S16777216.Idx) :
    val_main_v7 (F := Ideal) x0 i = flatOf x0 i := by
  rw [val_main_v7_apply, val_main_v4_apply, val_main_v3_apply, val_main_c_1_apply, clamp_eq x0 hpos]
  unfold IntOp.cmpi
  simp only []
  rw [not_slt_zero _ (flat_nonneg x0 hpos i)]
  rfl

/-- The index column of the scatter at row n is the flat array at n. -/
theorem col_eq (x0 : IVec S16x1048576 32) (hpos : ∀ i, 0 ≤ (x0 i).toInt) (n : Fin 16777216) :
    val_main_v8 (F := Ideal) x0 (ix2 n 0) = flatOf x0 (ix1 n) := by
  rw [val_main_v8_apply, wrap_eq x0 hpos]
  congr 1
  funext a
  match a with
  | ⟨0, _⟩ => rfl

/-- The count of bin b, as the converted histogram word. -/
theorem hist_eq (x0 : IVec S16x1048576 32) (hpos : ∀ i, 0 ≤ (x0 i).toInt) (b : Fin 1024) :
    val_main_v11 (F := Ideal) x0 (ix1 b) = cnt (seq (flatOf x0)) 0 16777216 (b.val : ℤ) := by
  rw [val_main_v11_apply]
  show ((((val_main_v10 (F := Ideal) x0 (ix1 b)).toInt : ℝ)) : EReal) = _
  unfold val_main_v10
  rw [scatter_count _ _ _ (fun i => by rw [val_main_v1_apply, val_main_c_apply])
    (fun i => by rw [val_main_v9_apply, val_main_c_3_apply]) b, cnt_eq_sum_fin]
  refine Finset.sum_congr rfl (fun n _ => ?_)
  rw [col_eq x0 hpos, Nat.zero_add]
  unfold seq
  rw [dif_pos n.isLt]

/-- The word 0x4B800000 is 2^24. -/
theorem ofBits_two_pow_24 : Ideal.ofBits .f32 0x4B800000#32 = ((16777216 : ℝ) : EReal) := by
  simp [Ideal.ofBits, Ideal.ieee, -EReal.coe_mul]; norm_num

/-- The share of bin b. -/
theorem prob_eq (x0 : IVec S16x1048576 32) (hpos : ∀ i, 0 ≤ (x0 i).toInt) (b : Fin 1024) :
    val_main_v13 (F := Ideal) x0 (ix1 b) = prob (flatOf x0) (b.val : ℤ) := by
  rw [val_main_v13_apply, val_main_v12_apply, val_main_cst_apply, hist_eq x0 hpos, Ideal.hostDivf_def, Ideal.ofBits_def,
    ofBits_two_pow_24, Ideal.div_coe (by norm_num)]
  rfl

/-- One bin's term. -/
theorem term_eq (x0 : IVec S16x1048576 32) (hpos : ∀ i, 0 ≤ (x0 i).toInt) (b : Fin 1024) :
    val_main_v17 (F := Ideal) x0 (ix1 b) = term (prob (flatOf x0) (b.val : ℤ)) := by
  rw [val_main_v17_apply, val_main_v16_apply, val_main_v15_apply, val_main_v14_apply, val_main_cst_4_apply,
    prob_eq x0 hpos, Ideal.mulf_def, Ideal.hostUnary_log_def, Ideal.addf_def, Ideal.ofBits_def]
  unfold term eps
  rfl

/-- A rank-one index of the 1024 bins is its one coordinate. -/
def binEquiv : S1024.Idx ≃ Fin 1024 where
  toFun i := i 0
  invFun b := ix1 b
  left_inv i := (eq_ix1 i).symm
  right_inv _ := rfl

/-- A sum over the bins' index set is the sum over the bin numbers. -/
theorem sum_bins (f : S1024.Idx → EReal) : ∑ j, f j = ∑ b : Fin 1024, f (ix1 b) :=
  (Equiv.sum_comp binEquiv.symm f).symm

/-- With every entry non-negative the reference's last stage is the perplexity of the flat array's histogram. -/
theorem result_eq (x0 : IVec S16x1048576 32) (hpos : ∀ i, 0 ≤ (x0 i).toInt) :
    val_main_v20 (F := Ideal) x0 = fun _ => G (flatOf x0) := by
  funext i
  rw [val_main_v20_apply, val_main_v19_apply, val_main_v18_apply, val_main_cst_5_apply, Ideal.hostUnary_exp_def,
    Ideal.hostNegf_def, Ideal.negf_def, Ideal.ofBits_def, Ideal.ofBits_zero_f32, zero_add, sum_bins]
  simp only [term_eq x0 hpos]
  unfold G
  rfl

end Cert.Hist.Ref

end
-- ==== Proof.PreDecode.lean ====
/-
  The precondition read: the printed predicate compares every entry with zero, signed, and folds the answers with AND from
  true; it is all ones exactly when no entry is negative.
-/
import proofs.«411108_j32641751450044_3_alg».proof.Pre_any_inputs
import Idealize.ShloMosaic.PureOps.Ideal
import Idealize.ShloMosaic.Lib.ValueIdx
import Idealize.ShloMosaic.Lib.ReduceAll
import Idealize.ShloMosaic.Lib.StableHlo.Predicate

noncomputable section

namespace Cert.Hist

open Idealize.ShloMosaic Idealize.ShloMosaic.ValueIdx

variable [Cert.Pre_any_inputs.Facts]

/-- A signed "at least" against the zero word answers 1 exactly when the word reads non-negative: the compare is
    `0 ≤ₛ w`, and the zero word reads 0. -/
private theorem sge_zero_eq_one {w : BitVec 32} (h : IntOp.cmpi .sge w 0#32 = 1#1) : 0 ≤ w.toInt := by
  unfold IntOp.cmpi at h
  have hb : (0#32 : BitVec 32).sle w = true := (StableHlo.Predicate.ofBool_eq_one_iff _).1 h
  have h0 : (0#32 : BitVec 32).toInt = 0 := by decide
  simpa only [BitVec.sle, h0, decide_eq_true_eq] using hb

/-- Under the precondition every entry of the argument reads non-negative. -/
theorem nonneg_of_pre (x0 : IVec Cert.Pre_any_inputs.S16x1048576 32)
    (h : Cert.Pre_any_inputs.fn (F := Ideal) x0 = fun _ => 1#1) : ∀ i, 0 ≤ (x0 i).toInt := by
  intro i
  -- the rank-0 result has one index, so the AND-fold being 1 there says every compare answered 1
  haveI : Subsingleton Cert.Pre_any_inputs.S_.Idx := ⟨fun a b => funext fun d => d.elim0⟩
  have e := congrFun h ix0
  dsimp only [Cert.Pre_any_inputs.fn] at e
  have hi := Host.reduce_andi_all _ _ _ _ ix0 e i
  -- at entry i the compare is of the entry against the broadcast zero word
  exact sge_zero_eq_one hi

end Cert.Hist

end
-- ==== Proof.lean ====
/-
  Perplexity of a 1024-bin histogram of 2^24 codec indices: the kernel against its reference, over the extended reals.

  The reference clamps each index at zero, scatter-adds ones into 1024 bins (an index of 1024 or more is dropped) and
  takes exp(−Σ p·log(p + ε)) of the shares p = count / 2^24.  The kernel splits an index x as 32·(x >> 5) + (x & 31),
  compares the two halves with the numbers 0 … 31 and contracts the two indicator matrices on the matrix unit, chunk by
  chunk, accumulating a 32 × 32 tile per core over a grid of 2 × 16 blocks; the host adds the two tiles, scales by 2^-24
  and takes the same entropy sum over the tile.  An index outside 0 … 1023 matches no pair of rows, so the kernel drops
  negative indices where the reference's clamp counts them in bin 0: the claim holds where no index is negative, which
  is the stated precondition, and there both sides are the one function G of the flat argument (Proof/Spec.lean).

  Kernel side: the pieces each grid point leaves (KernelPieces), the accumulator as a count (KernelAcc, KernelPoints), the
  windows' blocks (KernelBlocks), the host tail (KernelTailRead, Tail), joined in KernelValue.  Reference side: the
  scatter as a count (ScatterCount) and the remaining stages (RefValue).  The precondition is read in PreDecode.
-/
import proofs.«411108_j32641751450044_3_alg».proof.Defs
import proofs.«411108_j32641751450044_3_alg».proof.Proof.Gen.Kernel
import proofs.«411108_j32641751450044_3_alg».proof.Proof.Gen.Kernel.Skeleton
import proofs.«411108_j32641751450044_3_alg».proof.Proof.Gen.Kernel.Launch
import proofs.«411108_j32641751450044_3_alg».proof.Proof.Gen.Kernel.Points
import proofs.«411108_j32641751450044_3_alg».proof.Proof.Gen.Kernel.Frame
import proofs.«411108_j32641751450044_3_alg».proof.Proof.Gen.KernelIdeal
import proofs.«411108_j32641751450044_3_alg».proof.Proof.Gen.KernelIdeal.Skeleton
import proofs.«411108_j32641751450044_3_alg».proof.Proof.Gen.KernelIdeal.Launch
import proofs.«411108_j32641751450044_3_alg».proof.Proof.Gen.KernelIdeal.Points
import proofs.«411108_j32641751450044_3_alg».proof.Proof.Gen.KernelIdeal.Frame
import proofs.«411108_j32641751450044_3_alg».proof.Proof.Gen.ReferenceIdeal
import proofs.«411108_j32641751450044_3_alg».proof.Proof.Gen.Pre_any_inputs
import proofs.«411108_j32641751450044_3_alg».proof.Proof.Gen.ReferenceIdeal.Run
import proofs.«411108_j32641751450044_3_alg».proof.Proof.Gen.ReferenceIdeal.Read
import proofs.«411108_j32641751450044_3_alg».proof.Proof.KernelValue
import proofs.«411108_j32641751450044_3_alg».proof.Proof.RefValue
import proofs.«411108_j32641751450044_3_alg».proof.Proof.PreDecode
import Idealize.ShloMosaic.Adequacy
import Idealize.ShloMosaic.Init

noncomputable section

namespace Cert.Proof

open Idealize.ShloMosaic Idealize.SL.Sem

/-- The word-level kernel runs and leaves its argument alone: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- From memories that agree on the argument, with no index negative, both programs end at the perplexity of the flat
    argument's histogram. -/
theorem algebraic : Cert.algebraic_KernelIdeal_ReferenceIdeal := by
  intro m ρ m' ρ' hpre hagree
  refine ⟨fun c _ => Cert.Hist.G (Cert.Hist.flatOf (m ((c.tc : Thread Cert.KernelIdeal.nD Cert.KernelIdeal.τ).loc Cert.KernelIdeal.main_arg0))),
    Cert.Hist.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, hagree c]
  exact Cert.Hist.Ref.result_eq _ (Cert.Hist.nonneg_of_pre _ (hpre c))

theorem claim : Cert.Claim :=
  ⟨Cert.Kernel.Gen.facts, Cert.KernelIdeal.Gen.facts, Cert.ReferenceIdeal.Gen.facts, Cert.Pre_any_inputs.Gen.facts,
    frame_k, frame_ki, frame_ri, preserves, algebraic⟩

end Cert.Proof

end
